-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x64 : Shape := ⟨3, ![1, 8192, 64]⟩
abbrev S4096x64 : Shape := ⟨2, ![4096, 64]⟩
abbrev S2x4096x8192 : Shape := ⟨3, ![2, 4096, 8192]⟩
abbrev S192x64 : Shape := ⟨2, ![192, 64]⟩
abbrev S64 : Shape := ⟨1, ![64]⟩
abbrev S_ : Shape := ⟨0, ![]⟩

class Facts : Prop where
  bcast_S_S1x8192x64 : S_.BroadcastsInDim S1x8192x64 (![] : Fin 0 → Fin S1x8192x64.rank)
  reducesTo_S1x8192x64_S_d0_1_2 : S1x8192x64.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S2x4096x8192 : S_.BroadcastsInDim S2x4096x8192 (![] : Fin 0 → Fin S2x4096x8192.rank)
  reducesTo_S2x4096x8192_S_d0_1_2 : S2x4096x8192.ReducesTo [0, 1, 2] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S192x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x64 .f32 := Host.absf main_arg8
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S192x64 .f32) (main_arg5 : FVec F S64 .f32) (main_arg6 : FVec F S192x64 .f32) (main_arg7 : FVec F S64 .f32) (main_arg8 : FVec F S192x64 .f32) (main_arg9 : FVec F S64 .f32) (main_v13 : IVec S_ 1) (main_v16 : IVec S2x4096x8192 1) : IVec S_ 1 :=
  let main_c_5 : IVec S_ 1 := constantI S_ 1 1#1
  let main_v17 : IVec S_ 1 := (fun x v => Host.reduce IntOp.andi x v reducesTo_S2x4096x8192_S_d0_1_2 h_S_) main_v16 main_c_5
  let main_v18 : IVec S_ 1 := andi main_v13 main_v17
  let main_v19 : FVec F S192x64 .f32 := Host.absf main_arg4
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg6
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S1x8192x64 .f32) (main_arg1 : FVec F S1x8192x64 .f32) (main_arg2 : FVec F S4096x64 .f32) (main_arg3 : FVec F S2x4096x8192 .f32) (main_arg4 : FVec F S192x64 .f32) (main_arg5 : FVec F S64 .f32) (main_arg6 : FVec F S192x64 .f32) (main_arg7 : FVec F S64 .f32) (main_arg8 : FVec F S192x64 .f32) (main_arg9 : FVec F S64 .f32) : IVec S_ 1 :=
  let main_v0 : FVec F S1x8192x64 .f32 := Host.absf main_arg0
  let main_cst : FVec F S_ .f32 := constant S_ .f32 0x7F800000#32
  let main_v1 : FVec F S1x8192x64 .f32 := broadcastInDim S1x8192x64 ![] bcast_S_S1x8192x64 main_cst
  let main_v2 : IVec S1x8192x64 1 := cmpf .olt main_v0 main_v1
  let main_c : IVec S_ 1 := constantI S_ 1 1#1
  let main_v3 : IVec S_ 1 := (fun x v => Host.reduce IntOp.andi x v reducesTo_S1x8192x64_S_d0_1_2 h_S_) main_v2 main_c
  let main_v4 : FVec F S1x8192x64 .f32 := Host.absf main_arg1
  let main_cst_0 : FVec F S_ .f32 := constant S_ .f32 0x7F800000#32
  let main_v5 : FVec F S1x8192x64 .f32 := broadcastInDim S1x8192x64 ![] bcast_S_S1x8192x64 main_cst_0
  let main_v6 : IVec S1x8192x64 1 := cmpf .olt main_v4 main_v5
  let main_c_1 : IVec S_ 1 := constantI S_ 1 1#1
  let main_v7 : IVec S_ 1 := (fun x v => Host.reduce IntOp.andi x v reducesTo_S1x8192x64_S_d0_1_2 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S2x4096x8192 .f32 := Host.absf main_arg3
  let main_cst_4 : FVec F S_ .f32 := constant S_ .f32 0x7F800000#32
  let main_v15 : FVec F S2x4096x8192 .f32 := broadcastInDim S2x4096x8192 ![] bcast_S_S2x4096x8192 main_cst_4
  let main_v16 : IVec S2x4096x8192 1 := cmpf .olt main_v14 main_v15
  fn_part1 (F := F) main_arg4 main_arg5 main_arg6 main_arg7 main_arg8 main_arg9 main_v13 main_v16
-- ==== Kernel.lean ====
abbrev S1x8192x64 : Shape := ⟨3, ![1, 8192, 64]⟩
abbrev S4096x64 : Shape := ⟨2, ![4096, 64]⟩
abbrev S2x4096x8192 : Shape := ⟨3, ![2, 4096, 8192]⟩
abbrev S192x64 : Shape := ⟨2, ![192, 64]⟩
abbrev S64 : Shape := ⟨1, ![64]⟩
abbrev S8192x64 : Shape := ⟨2, ![8192, 64]⟩
abbrev S8192x8192 : Shape := ⟨2, ![8192, 8192]⟩
abbrev S1x64 : Shape := ⟨2, ![1, 64]⟩
abbrev S256x8192 : Shape := ⟨2, ![256, 8192]⟩
abbrev S256x64 : Shape := ⟨2, ![256, 64]⟩
abbrev S256x192 : Shape := ⟨2, ![256, 192]⟩

abbrev nBuf : Space → Nat
  | .hbm => 17
  | .vmem => 16
  | .smem => 0
  | _ => 0

abbrev bufTy : (tb : Table) → Fin (tcTables nBuf tb) → BufTy
  | .hbm, ⟨0, _⟩ => ⟨S1x8192x64, .f32⟩
  | .hbm, ⟨1, _⟩ => ⟨S1x8192x64, .f32⟩
  | .hbm, ⟨2, _⟩ => ⟨S4096x64, .f32⟩
  | .hbm, ⟨3, _⟩ => ⟨S2x4096x8192, .f32⟩
  | .hbm, ⟨4, _⟩ => ⟨S192x64, .f32⟩
  | .hbm, ⟨5, _⟩ => ⟨S64, .f32⟩
  | .hbm, ⟨6, _⟩ => ⟨S192x64, .f32⟩
  | .hbm, ⟨7, _⟩ => ⟨S64, .f32⟩
  | .hbm, ⟨8, _⟩ => ⟨S192x64, .f32⟩
  | .hbm, ⟨9, _⟩ => ⟨S64, .f32⟩
  | .hbm, ⟨10, _⟩ => ⟨S8192x64, .f32⟩
  | .hbm, ⟨11, _⟩ => ⟨S8192x64, .f32⟩
  | .hbm, ⟨12, _⟩ => ⟨S8192x8192, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S4096x64, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S8192x64, .f32⟩
  | .local _ .vmem, ⟨5, _⟩ => ⟨S8192x64, .f32⟩
  | .local _ .vmem, ⟨6, _⟩ => ⟨S256x64, .f32⟩
  | .local _ .vmem, ⟨7, _⟩ => ⟨S256x64, .f32⟩
  | .local _ .vmem, ⟨8, _⟩ => ⟨S192x64, .f32⟩
  | .local _ .vmem, ⟨9, _⟩ => ⟨S1x64, .f32⟩
  | .local _ .vmem, ⟨10, _⟩ => ⟨S192x64, .f32⟩
  | .local _ .vmem, ⟨11, _⟩ => ⟨S1x64, .f32⟩
  | .local _ .vmem, ⟨12, _⟩ => ⟨S192x64, .f32⟩
  | .local _ .vmem, ⟨13, _⟩ => ⟨S1x64, .f32⟩
  | .local _ .vmem, ⟨14, _⟩ => ⟨S256x64, .f32⟩
  | .local _ .vmem, ⟨15, _⟩ => ⟨S256x64, .f32⟩
  | _, _ => ⟨S1x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S192x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S1x8192x64_S8192x64 : S1x8192x64.ShapeCasts S8192x64
  shapeCasts_S2x4096x8192_S8192x8192 : S2x4096x8192.ShapeCasts S8192x8192
  shapeCasts_S64_S1x64 : S64.ShapeCasts S1x64
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S256x64_S256x64_0_0 : ∀ a, (![0, 0] : Fin 2 → Nat) a + S256x64.size a ≤ S256x64.size a
  h_S256x64 : 0 < S256x64.numel
  concatenates_S256x64_S256x64_S256x64_S256x192_d1 : Shape.Concatenates [S256x64, S256x64, S256x64] S256x192 1
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  dot_S256x8192_S8192x64_S256x64_1_0_0_1_n_n_wf : DotDims.WF S256x8192 S8192x64 S256x64 [1] [0] [0] [1] [] []
  dot_S256x192_S192x64_S256x64_1_0_0_1_n_n_wf : DotDims.WF S256x192 S192x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .f32 = 32 ∨ (Rect.block (s := S8192x64) S8192x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S8192x64.size a
  hwx0_3 : ∀ i : grid0.Coords, EltTy.bits .f32 = 32 ∨ (Rect.block (s := S8192x64) S8192x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S4096x64.size a
  hwx0_4 : ∀ i : grid0.Coords, EltTy.bits .f32 = 32 ∨ (Rect.block (s := S4096x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x64.size a ≤ S192x64.size a
  hwx0_5 : ∀ i : grid0.Coords, EltTy.bits .f32 = 32 ∨ (Rect.block (s := S192x64) S192x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x64.size a ≤ S192x64.size a
  hwx0_7 : ∀ i : grid0.Coords, EltTy.bits .f32 = 32 ∨ (Rect.block (s := S192x64) S192x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S192x64.size a ≤ S192x64.size a
  hwx0_9 : ∀ i : grid0.Coords, EltTy.bits .f32 = 32 ∨ (Rect.block (s := S192x64) S192x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x64.size a ≤ S4096x64.size a
  hwx0_11 : ∀ i : grid0.Coords, EltTy.bits .f32 = 32 ∨ (Rect.block (s := S4096x64) S256x64.size (cc0_transform_11 i) (hinb0_11 i)).WholeWords (EltTy.packing .f32)

variable [Facts₀]

def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S256x192_S192x64_S256x64_1_0_0_1_n_n : DotDims S256x192 S192x64 S256x64 where
  lhsContracting := [1]
  rhsContracting := [0]
  lhsNonContracting := [0]
  rhsNonContracting := [1]
  lhsBatch := []
  rhsBatch := []
  wf := dot_S256x192_S192x64_S256x64_1_0_0_1_n_n_wf

abbrev win0_0 : Pipeline.Window sig grid0 :=
  Pipeline.Window.ofSpec (Memref.whole main_v2) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S192x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S192x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S192x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S256x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1x8192x64 : Shape := ⟨3, ![1, 8192, 64]⟩
abbrev S4096x64 : Shape := ⟨2, ![4096, 64]⟩
abbrev S2x4096x8192 : Shape := ⟨3, ![2, 4096, 8192]⟩
abbrev S192x64 : Shape := ⟨2, ![192, 64]⟩
abbrev S64 : Shape := ⟨1, ![64]⟩
abbrev S8192x64 : Shape := ⟨2, ![8192, 64]⟩
abbrev S1x4096x8192 : Shape := ⟨3, ![1, 4096, 8192]⟩
abbrev S4096x8192 : Shape := ⟨2, ![4096, 8192]⟩
abbrev S4096x192 : Shape := ⟨2, ![4096, 192]⟩
abbrev S1x64 : Shape := ⟨2, ![1, 64]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S1x8192x64, .f32⟩
  | .hbm, ⟨1, _⟩ => ⟨S1x8192x64, .f32⟩
  | .hbm, ⟨2, _⟩ => ⟨S4096x64, .f32⟩
  | .hbm, ⟨3, _⟩ => ⟨S2x4096x8192, .f32⟩
  | .hbm, ⟨4, _⟩ => ⟨S192x64, .f32⟩
  | .hbm, ⟨5, _⟩ => ⟨S64, .f32⟩
  | .hbm, ⟨6, _⟩ => ⟨S192x64, .f32⟩
  | .hbm, ⟨7, _⟩ => ⟨S64, .f32⟩
  | .hbm, ⟨8, _⟩ => ⟨S192x64, .f32⟩
  | .hbm, ⟨9, _⟩ => ⟨S64, .f32⟩
  | .hbm, ⟨10, _⟩ => ⟨S8192x64, .f32⟩
  | .hbm, ⟨11, _⟩ => ⟨S8192x64, .f32⟩
  | .hbm, ⟨12, _⟩ => ⟨S1x4096x8192, .f32⟩
  | .hbm, ⟨13, _⟩ => ⟨S4096x8192, .f32⟩
  | .hbm, ⟨14, _⟩ => ⟨S1x4096x8192, .f32⟩
  | .hbm, ⟨15, _⟩ => ⟨S4096x8192, .f32⟩
  | .hbm, ⟨16, _⟩ => ⟨S4096x64, .f32⟩
  | .hbm, ⟨17, _⟩ => ⟨S4096x64, .f32⟩
  | .hbm, ⟨18, _⟩ => ⟨S4096x192, .f32⟩
  | .hbm, ⟨19, _⟩ => ⟨S4096x64, .f32⟩
  | .hbm, ⟨20, _⟩ => ⟨S1x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S_, .f32⟩
  | .hbm, ⟨26, _⟩ => ⟨S4096x64, .f32⟩
  | .hbm, ⟨27, _⟩ => ⟨S4096x64, .f32⟩
  | .hbm, ⟨28, _⟩ => ⟨S_, .f32⟩
  | .hbm, ⟨29, _⟩ => ⟨S4096x64, .f32⟩
  | .hbm, ⟨30, _⟩ => ⟨S4096x64, .f32⟩
  | .hbm, ⟨31, _⟩ => ⟨S4096x64, .f32⟩
  | .hbm, ⟨32, _⟩ => ⟨S1x64, .f32⟩
  | .hbm, ⟨33, _⟩ => ⟨S4096x64, .f32⟩
  | .hbm, ⟨34, _⟩ => ⟨S4096x64, .f32⟩
  | .hbm, ⟨35, _⟩ => ⟨S4096x64, .f32⟩
  | .hbm, ⟨36, _⟩ => ⟨S4096x64, .f32⟩
  | .hbm, ⟨37, _⟩ => ⟨S_, .f32⟩
  | .hbm, ⟨38, _⟩ => ⟨S4096x64, .f32⟩
  | .hbm, ⟨39, _⟩ => ⟨S4096x64, .f32⟩
  | .hbm, ⟨40, _⟩ => ⟨S_, .f32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S4096x192, .f32⟩
  | .hbm, ⟨45, _⟩ => ⟨S4096x64, .f32⟩
  | .hbm, ⟨46, _⟩ => ⟨S1x64, .f32⟩
  | .hbm, ⟨47, _⟩ => ⟨S4096x64, .f32⟩
  | .hbm, ⟨48, _⟩ => ⟨S4096x64, .f32⟩
  | .hbm, ⟨49, _⟩ => ⟨S4096x64, .f32⟩
  | .hbm, ⟨50, _⟩ => ⟨S_, .f32⟩
  | .hbm, ⟨51, _⟩ => ⟨S4096x64, .f32⟩
  | .hbm, ⟨52, _⟩ => ⟨S4096x64, .f32⟩
  | .hbm, ⟨53, _⟩ => ⟨S4096x64, .f32⟩
  | .hbm, ⟨54, _⟩ => ⟨S4096x64, .f32⟩
  | .hbm, ⟨55, _⟩ => ⟨S4096x64, .f32⟩
  | _, _ => ⟨S1x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  shapeCasts_S1x8192x64_S8192x64 : S1x8192x64.ShapeCasts S8192x64
  slices_S2x4096x8192_S1x4096x8192_0_0_0 : S2x4096x8192.Slices ![0, 0, 0] S1x4096x8192
  shapeCasts_S1x4096x8192_S4096x8192 : S1x4096x8192.ShapeCasts S4096x8192
  slices_S2x4096x8192_S1x4096x8192_1_0_0 : S2x4096x8192.Slices ![1, 0, 0] S1x4096x8192
  concatenates_S4096x64_S4096x64_S4096x64_S4096x192_d1 : Shape.Concatenates [S4096x64, S4096x64, S4096x64] S4096x192 1
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  dot_S4096x8192_S8192x64_S4096x64_1_0_0_1_n_n_wf : DotDims.WF S4096x8192 S8192x64 S4096x64 [1] [0] [0] [1] [] []
  dot_S4096x192_S192x64_S4096x64_1_0_0_1_n_n_wf : DotDims.WF S4096x192 S192x64 S4096x64 [1] [0] [0] [1] [] []

variable [Facts₀]

def dot_S4096x8192_S8192x64_S4096x64_1_0_0_1_n_n : DotDims S4096x8192 S8192x64 S4096x64 where
  lhsContracting := [1]
  rhsContracting := [0]
  lhsNonContracting := [0]
  rhsNonContracting := [1]
  lhsBatch := []
  rhsBatch := []
  wf := dot_S4096x8192_S8192x64_S4096x64_1_0_0_1_n_n_wf
def dot_S4096x192_S192x64_S4096x64_1_0_0_1_n_n : DotDims S4096x192 S192x64 S4096x64 where
  lhsContracting := [1]
  rhsContracting := [0]
  lhsNonContracting := [0]
  rhsNonContracting := [1]
  lhsBatch := []
  rhsBatch := []
  wf := dot_S4096x192_S192x64_S4096x64_1_0_0_1_n_n_wf

class Facts : Prop extends Facts₀ where

variable [Facts]
-- ==== Proof.LibFrameShared.lean ====
/-
  The frame run of a one-region pipeline kernel whose INPUT windows may read one array through several
  windows.  The kernel keeps nothing between grid points beyond its staging buffers, names no semaphore of
  its own and uses no scratch it describes: its region invariant is the scoped rest alone.  Every array of the
  pipeline ends at what the proof data compute (`Dat.arrAt … N`), and every unscoped buffer that is no window's
  array ends as the region found it.  How the full share of each array buffer is dealt among the windows that
  read it is the caller's entailment `hsplit`.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run for windows that may share arrays: the layout facts by name (the windows' facts without the
    arrays' distinctness), the body obligation, @main up to the region, the split of the array buffers among the
    windows, and an invariant that is the scoped rest at every point. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H; isplitr
      · iempintro
      · iexact H)
    (hin := fun c => by
      rw [hΦ]; iintro ⟨-, H⟩; iexact H)
    (hout := fun c => by
      rw [hΦ]; iintro H; isplitr
      · iempintro
      · iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.KernelFrame.lean ====
/-
  The frame of the program: @main is six reshapes and one kernel region on a grid of 16 points.  The region reads
  the reshaped adjacency array through TWO windows (rows of its first half and rows of its second half), the two
  reshaped state arrays, the current state, three weight matrices and three reshaped bias rows; it writes one
  block of 256 rows of the result at each point.  The two windows on the adjacency array hold it at the two halves
  of its full share.  At every point each input window's staging buffer holds the window's block of its array, the
  body computes the result block from those blocks alone, and the argument arrays are never written.
-/
import proofs.«124932_g33844342292619_cont_8to1_b_602_5_alg».proof.Proof.Gen.Kernel.Launch
import proofs.«124932_g33844342292619_cont_8to1_b_602_5_alg».proof.Proof.Gen.Kernel.Skeleton
import proofs.«124932_g33844342292619_cont_8to1_b_602_5_alg».proof.Proof.Gen.Kernel.Points
import proofs.«124932_g33844342292619_cont_8to1_b_602_5_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers as the region finds them: the launch contents after the six reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the reshapes and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the six reshapes' results is found by the region as launched. -/
theorem V_kept (c : Dev nD) (b : Ref sig .tc) (h0 : b ≠ main_v0) (h1 : b ≠ main_v1) (h2 : b ≠ main_v2) (h3 : b ≠ main_v3)
    (h4 : b ≠ main_v4) (h5 : b ≠ main_v5) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each INPUT window's current staging buffer holds its block at every point, fetched there or not: an unfetched
    window's block index has not moved, no window is cut or idle, and the body leaves the block in place. One
    statement per input window (a window's block type is read off the literal window; window 11 is the output). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_in9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_in10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rA : Rect S256x8192 := Rect.unit (s := S256x8192) ![0, 0] S256x8192.size inb_S256x8192_S256x8192_0_0
abbrev rS : Rect S8192x64 := Rect.unit (s := S8192x64) ![0, 0] S8192x64.size inb_S8192x64_S8192x64_0_0
abbrev rC : Rect S256x64 := Rect.unit (s := S256x64) ![0, 0] S256x64.size inb_S256x64_S256x64_0_0
abbrev rW : Rect S192x64 := Rect.unit (s := S192x64) ![0, 0] S192x64.size inb_S192x64_S192x64_0_0
abbrev rB : Rect S1x64 := Rect.unit (s := S1x64) ![0, 0] S1x64.size inb_S1x64_S1x64_0_0

/-! ## What the body leaves in the output window's buffer -/

/-- The output buffer after the body, from the eleven input buffers: its one store, of the gated update computed
    from the two adjacency blocks `x0`, `x1`, the two state arrays `x2`, `x3`, the current-state block `x4`, and
    the reset, update and candidate weights and biases `x5 … x10`. -/
def outBlk (x0 x1 : Vec F S256x8192 .f32) (x2 x3 : Vec F S8192x64 .f32) (x4 : Vec F S256x64 .f32)
    (x5 : Vec F S192x64 .f32) (x6 : Vec F S1x64 .f32) (x7 : Vec F S192x64 .f32) (x8 : Vec F S1x64 .f32)
    (x9 : Vec F S192x64 .f32) (x10 : Vec F S1x64 .f32) : Vec F S256x64 .f32 :=
  View.canon [⟨rC, k0_pay1 (View.ld x4 rC)
    (k0_pay5 (View.ld x0 rA) (View.ld x2 rS) (View.ld x1 rA) (View.ld x3 rS) (View.ld x4 rC) (View.ld x7 rW) (View.ld x8 rB))
    (k0_pay6 (View.ld x0 rA) (View.ld x2 rS) (View.ld x1 rA) (View.ld x3 rS) (View.ld x4 rC) (View.ld x5 rW) (View.ld x6 rB) (View.ld x9 rW))
    (k0_pay7 (View.ld x10 rB))⟩]

/-- The one store covers the buffer. -/
theorem cover_out (p0 : Vec F S256x64 .f32) (y : S256x64.Idx) :
    ∃ pc ∈ ([⟨rC, p0⟩] : List (View.Piece (Elt F) S256x64 .f32)), y ∈ pc.1.set :=
  View.cover_of_tiled [⟨rC, p0⟩] S256x64.size (by rfl) y

/-! ## The body's triple -/

set_option maxHeartbeats 1000000 in
/-- The body on whole staging memrefs, the inputs' at read contents `x0 … x10` and the output's at anything, runs to
    the continuation holding the inputs' as they were and the output's at `outBlk` of them. -/
theorem sound_kernel (c : Dev nD) (E : Set ℕ) (i : grid0.Coords)
    (arg1 : Memref sig .tc .vmem S256x8192 .f32) (harg1 : arg1.IsWhole) (arg2 : Memref sig .tc .vmem S256x8192 .f32) (harg2 : arg2.IsWhole)
    (arg3 : Memref sig .tc .vmem S8192x64 .f32) (harg3 : arg3.IsWhole) (arg4 : Memref sig .tc .vmem S8192x64 .f32) (harg4 : arg4.IsWhole)
    (arg5 : Memref sig .tc .vmem S256x64 .f32) (harg5 : arg5.IsWhole) (arg6 : Memref sig .tc .vmem S192x64 .f32) (harg6 : arg6.IsWhole)
    (arg7 : Memref sig .tc .vmem S1x64 .f32) (harg7 : arg7.IsWhole) (arg8 : Memref sig .tc .vmem S192x64 .f32) (harg8 : arg8.IsWhole)
    (arg9 : Memref sig .tc .vmem S1x64 .f32) (harg9 : arg9.IsWhole) (arg10 : Memref sig .tc .vmem S192x64 .f32) (harg10 : arg10.IsWhole)
    (arg11 : Memref sig .tc .vmem S1x64 .f32) (harg11 : arg11.IsWhole) (arg12 : Memref sig .tc .vmem S256x64 .f32) (harg12 : arg12.IsWhole)
    (x0 x1 : Vec F S256x8192 .f32) (x2 x3 : Vec F S8192x64 .f32) (x4 : Vec F S256x64 .f32)
    (x5 : Vec F S192x64 .f32) (x6 : Vec F S1x64 .f32) (x7 : Vec F S192x64 .f32) (x8 : Vec F S1x64 .f32)
    (x9 : Vec F S192x64 .f32) (x10 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (outBlk x0 x1 x2 x3 x4 x5 x6 x7 x8 x9 x10)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover_out _)

/-! ## The pipeline's proof data -/

/-- The proof data on core `c`: the arrays as the region finds them; after the body at point `t` each input's buffer
    at its block and the output's at `outBlk` of the input blocks; the invariant the scoped rest; nothing owed; the
    adjacency array held at one half of its full share by each of its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlk (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

/-! What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) :
    (dats m 0 c).after 11 t = outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-! Each input's current staging buffer holds its block at every point. -/
theorem before0 (c : Dev nD) (t : Fin cfg0.N) (d) : (dats m 0 c).before 0 t d = iblk m c 0 t := before_in0 m (dats m 0 c) (A_eq m c 0) (after0 m c) t d
theorem before1 (c : Dev nD) (t : Fin cfg0.N) (d) : (dats m 0 c).before 1 t d = iblk m c 1 t := before_in1 m (dats m 0 c) (A_eq m c 1) (after1 m c) t d
theorem before2 (c : Dev nD) (t : Fin cfg0.N) (d) : (dats m 0 c).before 2 t d = iblk m c 2 t := before_in2 m (dats m 0 c) (A_eq m c 2) (after2 m c) t d
theorem before3 (c : Dev nD) (t : Fin cfg0.N) (d) : (dats m 0 c).before 3 t d = iblk m c 3 t := before_in3 m (dats m 0 c) (A_eq m c 3) (after3 m c) t d
theorem before4 (c : Dev nD) (t : Fin cfg0.N) (d) : (dats m 0 c).before 4 t d = iblk m c 4 t := before_in4 m (dats m 0 c) (A_eq m c 4) (after4 m c) t d
theorem before5 (c : Dev nD) (t : Fin cfg0.N) (d) : (dats m 0 c).before 5 t d = iblk m c 5 t := before_in5 m (dats m 0 c) (A_eq m c 5) (after5 m c) t d
theorem before6 (c : Dev nD) (t : Fin cfg0.N) (d) : (dats m 0 c).before 6 t d = iblk m c 6 t := before_in6 m (dats m 0 c) (A_eq m c 6) (after6 m c) t d
theorem before7 (c : Dev nD) (t : Fin cfg0.N) (d) : (dats m 0 c).before 7 t d = iblk m c 7 t := before_in7 m (dats m 0 c) (A_eq m c 7) (after7 m c) t d
theorem before8 (c : Dev nD) (t : Fin cfg0.N) (d) : (dats m 0 c).before 8 t d = iblk m c 8 t := before_in8 m (dats m 0 c) (A_eq m c 8) (after8 m c) t d
theorem before9 (c : Dev nD) (t : Fin cfg0.N) (d) : (dats m 0 c).before 9 t d = iblk m c 9 t := before_in9 m (dats m 0 c) (A_eq m c 9) (after9 m c) t d
theorem before10 (c : Dev nD) (t : Fin cfg0.N) (d) : (dats m 0 c).before 10 t d = iblk m c 10 t := before_in10 m (dats m 0 c) (A_eq m c 10) (after10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays' shares and their split at the region's entry -/

theorem share0 (c : Dev nD) : (dats m 0 c).share 0 = fullShare.left := rfl
theorem share1 (c : Dev nD) : (dats m 0 c).share 1 = fullShare.right := rfl
theorem share_rest (c : Dev nD) (w : Fin cfg0.W) (h0 : w ≠ 0) (h1 : w ≠ 1) : (dats m 0 c).share w = fullShare := by
  fin_cases w
  · exact absurd rfl h0
  · exact absurd rfl h1
  all_goals rfl

/-- The eleven distinct buffers behind the twelve windows' arrays, each whole at the full share as the region finds
    it, make the windows' arrays at their shares: the adjacency array's full share is split into its two halves,
    one for each of the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have harrs : (dats m 0 c).arrays ((dats m 0 c).arrAt · 0)
      = bigSep Finset.univ fun w : Fin 12 =>
          ((((c : Thread nD τ).loc (Pipeline.arrRef spec0 w)) ↦{(dats m 0 c).share w} V m c (Pipeline.arrRef spec0 w)) : sProp 𝕄) := by
    unfold Dat.arrays
    exact bigSep_congr fun w _ => by rw [(arr_whole0 w).set_eq_univ]; rfl
  rw [harrs, bigSep_W0]
  have hbufs : (Pipeline.arrBufs (Ix := Unit) (Name := ℕ) (U := UR sig nD τ) (Lvl := ℕ) spec0 c (V m c) : sProp 𝕄)
      = iprop((((c : Thread nD τ).loc main_v2) ↦{fullShare} V m c main_v2) ∗ (((c : Thread nD τ).loc main_v0) ↦{fullShare} V m c main_v0) ∗ (((c : Thread nD τ).loc main_v1) ↦{fullShare} V m c main_v1) ∗ (((c : Thread nD τ).loc main_arg2) ↦{fullShare} V m c main_arg2) ∗ (((c : Thread nD τ).loc main_arg4) ↦{fullShare} V m c main_arg4) ∗ (((c : Thread nD τ).loc main_v3) ↦{fullShare} V m c main_v3) ∗ (((c : Thread nD τ).loc main_arg6) ↦{fullShare} V m c main_arg6) ∗ (((c : Thread nD τ).loc main_v4) ↦{fullShare} V m c main_v4) ∗ (((c : Thread nD τ).loc main_arg8) ↦{fullShare} V m c main_arg8) ∗ (((c : Thread nD τ).loc main_v5) ↦{fullShare} V m c main_v5) ∗ (((c : Thread nD τ).loc main_v6) ↦{fullShare} V m c main_v6)) := by
    unfold Pipeline.arrBufs
    exact bigSep_eq_bigSepL_of_eq [main_v2, main_v0, main_v1, main_arg2, main_arg4, main_v3, main_arg6, main_v4, main_arg8, main_v5, main_v6]
      (by decide) (by decide) _
  rw [hbufs]
  rw [share0, share1, share_rest m c 2 (by decide) (by decide), share_rest m c 3 (by decide) (by decide),
    share_rest m c 4 (by decide) (by decide), share_rest m c 5 (by decide) (by decide), share_rest m c 6 (by decide) (by decide),
    share_rest m c 7 (by decide) (by decide), share_rest m c 8 (by decide) (by decide), share_rest m c 9 (by decide) (by decide),
    share_rest m c 10 (by decide) (by decide), share_rest m c 11 (by decide) (by decide)]
  iintro ⟨Hv2, Hv0, Hv1, Ha2, Ha4, Hv3, Ha6, Hv4, Ha8, Hv5, Hv6⟩
  icases (pointsTo_share (PosShare.mem_left_op_right fullShare)).1 $$ Hv2 with ⟨HL, HR⟩
  isplitl [HL]; · iexact HL
  isplitl [HR]; · iexact HR
  isplitl [Hv0]; · iexact Hv0
  isplitl [Hv1]; · iexact Hv1
  isplitl [Ha2]; · iexact Ha2
  isplitl [Ha4]; · iexact Ha4
  isplitl [Hv3]; · iexact Hv3
  isplitl [Ha6]; · iexact Ha6
  isplitl [Hv4]; · iexact Hv4
  isplitl [Ha8]; · iexact Ha8
  isplitl [Hv5]; · iexact Hv5
  iexact Hv6

/-! ## The run and the frame -/

set_option backward.isDefEq.respectTransparency.types false in
/-- From any memory with zero counters every weakly fair execution of @main terminates, every array of the pipeline
    ends at what the proof data compute, and every other unscoped buffer ends as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- info: 'Cert.Kernel.Hand.run_main' depends on axioms: [propext, Classical.choice, Quot.sound] -/
#guard_msgs in #print axioms run_main

/-- The ten argument arrays end as launched: the four that are windows' arrays (the current state and the three
    weight matrices) are inputs, never written back; the other six are no window's array, bypass the region, and no
    reshape writes them. With them, the result array ends at what the proof data compute of the output window. -/
theorem run_args : θ_run defs (onTc (τ := τ) (main (F := F))) ⟨m, fun _ => 0, ρ⟩ (fun r => ∀ c : Dev nD,
      r.2.mem ((c.tc : Thread nD τ).loc main_v6) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c).1 11,
     ((h c).2 main_arg0 (Pipeline.mem_restRefs_of main_arg0 (by decide) (by decide))).trans (V_kept m c main_arg0 (by decide) (by decide) (by decide) (by decide) (by decide) (by decide)),
     ((h c).2 main_arg1 (Pipeline.mem_restRefs_of main_arg1 (by decide) (by decide))).trans (V_kept m c main_arg1 (by decide) (by decide) (by decide) (by decide) (by decide) (by decide)),
     ((h c).1 4).trans (((dats m 0 c).arrAt_in 4 rfl _).trans ((A_eq m c 4).trans (V_kept m c main_arg2 (by decide) (by decide) (by decide) (by decide) (by decide) (by decide)))),
     ((h c).2 main_arg3 (Pipeline.mem_restRefs_of main_arg3 (by decide) (by decide))).trans (V_kept m c main_arg3 (by decide) (by decide) (by decide) (by decide) (by decide) (by decide)),
     ((h c).1 5).trans (((dats m 0 c).arrAt_in 5 rfl _).trans ((A_eq m c 5).trans (V_kept m c main_arg4 (by decide) (by decide) (by decide) (by decide) (by decide) (by decide)))),
     ((h c).2 main_arg5 (Pipeline.mem_restRefs_of main_arg5 (by decide) (by decide))).trans (V_kept m c main_arg5 (by decide) (by decide) (by decide) (by decide) (by decide) (by decide)),
     ((h c).1 7).trans (((dats m 0 c).arrAt_in 7 rfl _).trans ((A_eq m c 7).trans (V_kept m c main_arg6 (by decide) (by decide) (by decide) (by decide) (by decide) (by decide)))),
     ((h c).2 main_arg7 (Pipeline.mem_restRefs_of main_arg7 (by decide) (by decide))).trans (V_kept m c main_arg7 (by decide) (by decide) (by decide) (by decide) (by decide) (by decide)),
     ((h c).1 9).trans (((dats m 0 c).arrAt_in 9 rfl _).trans ((A_eq m c 9).trans (V_kept m c main_arg8 (by decide) (by decide) (by decide) (by decide) (by decide) (by decide)))),
     ((h c).2 main_arg9 (Pipeline.mem_restRefs_of main_arg9 (by decide) (by decide))).trans (V_kept m c main_arg9 (by decide) (by decide) (by decide) (by decide) (by decide) (by decide))⟩)
    (run_main m ρ)

/-- THE FRAME: the program runs to the end, faults nowhere, and leaves its ten argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_args m ρ)

end Cert.Kernel.Hand

end
-- ==== Proof.KernelIdealFrame.lean ====
/-
  The frame of the program: @main is six reshapes and one kernel region on a grid of 16 points.  The region reads
  the reshaped adjacency array through TWO windows (rows of its first half and rows of its second half), the two
  reshaped state arrays, the current state, three weight matrices and three reshaped bias rows; it writes one
  block of 256 rows of the result at each point.  The two windows on the adjacency array hold it at the two halves
  of its full share.  At every point each input window's staging buffer holds the window's block of its array, the
  body computes the result block from those blocks alone, and the argument arrays are never written.
-/
import proofs.«124932_g33844342292619_cont_8to1_b_602_5_alg».proof.Proof.Gen.KernelIdeal.Launch
import proofs.«124932_g33844342292619_cont_8to1_b_602_5_alg».proof.Proof.Gen.KernelIdeal.Skeleton
import proofs.«124932_g33844342292619_cont_8to1_b_602_5_alg».proof.Proof.Gen.KernelIdeal.Points
import proofs.«124932_g33844342292619_cont_8to1_b_602_5_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers as the region finds them: the launch contents after the six reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the reshapes and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the six reshapes' results is found by the region as launched. -/
theorem V_kept (c : Dev nD) (b : Ref sig .tc) (h0 : b ≠ main_v0) (h1 : b ≠ main_v1) (h2 : b ≠ main_v2) (h3 : b ≠ main_v3)
    (h4 : b ≠ main_v4) (h5 : b ≠ main_v5) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each INPUT window's current staging buffer holds its block at every point, fetched there or not: an unfetched
    window's block index has not moved, no window is cut or idle, and the body leaves the block in place. One
    statement per input window (a window's block type is read off the literal window; window 11 is the output). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_in9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_in10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rA : Rect S256x8192 := Rect.unit (s := S256x8192) ![0, 0] S256x8192.size inb_S256x8192_S256x8192_0_0
abbrev rS : Rect S8192x64 := Rect.unit (s := S8192x64) ![0, 0] S8192x64.size inb_S8192x64_S8192x64_0_0
abbrev rC : Rect S256x64 := Rect.unit (s := S256x64) ![0, 0] S256x64.size inb_S256x64_S256x64_0_0
abbrev rW : Rect S192x64 := Rect.unit (s := S192x64) ![0, 0] S192x64.size inb_S192x64_S192x64_0_0
abbrev rB : Rect S1x64 := Rect.unit (s := S1x64) ![0, 0] S1x64.size inb_S1x64_S1x64_0_0

/-! ## What the body leaves in the output window's buffer -/

/-- The output buffer after the body, from the eleven input buffers: its one store, of the gated update computed
    from the two adjacency blocks `x0`, `x1`, the two state arrays `x2`, `x3`, the current-state block `x4`, and
    the reset, update and candidate weights and biases `x5 … x10`. -/
def outBlk (x0 x1 : Vec F S256x8192 .f32) (x2 x3 : Vec F S8192x64 .f32) (x4 : Vec F S256x64 .f32)
    (x5 : Vec F S192x64 .f32) (x6 : Vec F S1x64 .f32) (x7 : Vec F S192x64 .f32) (x8 : Vec F S1x64 .f32)
    (x9 : Vec F S192x64 .f32) (x10 : Vec F S1x64 .f32) : Vec F S256x64 .f32 :=
  View.canon [⟨rC, k0_pay1 (View.ld x4 rC)
    (k0_pay5 (View.ld x0 rA) (View.ld x2 rS) (View.ld x1 rA) (View.ld x3 rS) (View.ld x4 rC) (View.ld x7 rW) (View.ld x8 rB))
    (k0_pay6 (View.ld x0 rA) (View.ld x2 rS) (View.ld x1 rA) (View.ld x3 rS) (View.ld x4 rC) (View.ld x5 rW) (View.ld x6 rB) (View.ld x9 rW))
    (k0_pay7 (View.ld x10 rB))⟩]

/-- The one store covers the buffer. -/
theorem cover_out (p0 : Vec F S256x64 .f32) (y : S256x64.Idx) :
    ∃ pc ∈ ([⟨rC, p0⟩] : List (View.Piece (Elt F) S256x64 .f32)), y ∈ pc.1.set :=
  View.cover_of_tiled [⟨rC, p0⟩] S256x64.size (by rfl) y

/-! ## The body's triple -/

set_option maxHeartbeats 1000000 in
/-- The body on whole staging memrefs, the inputs' at read contents `x0 … x10` and the output's at anything, runs to
    the continuation holding the inputs' as they were and the output's at `outBlk` of them. -/
theorem sound_kernel (c : Dev nD) (E : Set ℕ) (i : grid0.Coords)
    (arg1 : Memref sig .tc .vmem S256x8192 .f32) (harg1 : arg1.IsWhole) (arg2 : Memref sig .tc .vmem S256x8192 .f32) (harg2 : arg2.IsWhole)
    (arg3 : Memref sig .tc .vmem S8192x64 .f32) (harg3 : arg3.IsWhole) (arg4 : Memref sig .tc .vmem S8192x64 .f32) (harg4 : arg4.IsWhole)
    (arg5 : Memref sig .tc .vmem S256x64 .f32) (harg5 : arg5.IsWhole) (arg6 : Memref sig .tc .vmem S192x64 .f32) (harg6 : arg6.IsWhole)
    (arg7 : Memref sig .tc .vmem S1x64 .f32) (harg7 : arg7.IsWhole) (arg8 : Memref sig .tc .vmem S192x64 .f32) (harg8 : arg8.IsWhole)
    (arg9 : Memref sig .tc .vmem S1x64 .f32) (harg9 : arg9.IsWhole) (arg10 : Memref sig .tc .vmem S192x64 .f32) (harg10 : arg10.IsWhole)
    (arg11 : Memref sig .tc .vmem S1x64 .f32) (harg11 : arg11.IsWhole) (arg12 : Memref sig .tc .vmem S256x64 .f32) (harg12 : arg12.IsWhole)
    (x0 x1 : Vec F S256x8192 .f32) (x2 x3 : Vec F S8192x64 .f32) (x4 : Vec F S256x64 .f32)
    (x5 : Vec F S192x64 .f32) (x6 : Vec F S1x64 .f32) (x7 : Vec F S192x64 .f32) (x8 : Vec F S1x64 .f32)
    (x9 : Vec F S192x64 .f32) (x10 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (outBlk x0 x1 x2 x3 x4 x5 x6 x7 x8 x9 x10)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover_out _)

/-! ## The pipeline's proof data -/

/-- The proof data on core `c`: the arrays as the region finds them; after the body at point `t` each input's buffer
    at its block and the output's at `outBlk` of the input blocks; the invariant the scoped rest; nothing owed; the
    adjacency array held at one half of its full share by each of its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlk (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

/-! What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) :
    (dats m 0 c).after 11 t = outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-! Each input's current staging buffer holds its block at every point. -/
theorem before0 (c : Dev nD) (t : Fin cfg0.N) (d) : (dats m 0 c).before 0 t d = iblk m c 0 t := before_in0 m (dats m 0 c) (A_eq m c 0) (after0 m c) t d
theorem before1 (c : Dev nD) (t : Fin cfg0.N) (d) : (dats m 0 c).before 1 t d = iblk m c 1 t := before_in1 m (dats m 0 c) (A_eq m c 1) (after1 m c) t d
theorem before2 (c : Dev nD) (t : Fin cfg0.N) (d) : (dats m 0 c).before 2 t d = iblk m c 2 t := before_in2 m (dats m 0 c) (A_eq m c 2) (after2 m c) t d
theorem before3 (c : Dev nD) (t : Fin cfg0.N) (d) : (dats m 0 c).before 3 t d = iblk m c 3 t := before_in3 m (dats m 0 c) (A_eq m c 3) (after3 m c) t d
theorem before4 (c : Dev nD) (t : Fin cfg0.N) (d) : (dats m 0 c).before 4 t d = iblk m c 4 t := before_in4 m (dats m 0 c) (A_eq m c 4) (after4 m c) t d
theorem before5 (c : Dev nD) (t : Fin cfg0.N) (d) : (dats m 0 c).before 5 t d = iblk m c 5 t := before_in5 m (dats m 0 c) (A_eq m c 5) (after5 m c) t d
theorem before6 (c : Dev nD) (t : Fin cfg0.N) (d) : (dats m 0 c).before 6 t d = iblk m c 6 t := before_in6 m (dats m 0 c) (A_eq m c 6) (after6 m c) t d
theorem before7 (c : Dev nD) (t : Fin cfg0.N) (d) : (dats m 0 c).before 7 t d = iblk m c 7 t := before_in7 m (dats m 0 c) (A_eq m c 7) (after7 m c) t d
theorem before8 (c : Dev nD) (t : Fin cfg0.N) (d) : (dats m 0 c).before 8 t d = iblk m c 8 t := before_in8 m (dats m 0 c) (A_eq m c 8) (after8 m c) t d
theorem before9 (c : Dev nD) (t : Fin cfg0.N) (d) : (dats m 0 c).before 9 t d = iblk m c 9 t := before_in9 m (dats m 0 c) (A_eq m c 9) (after9 m c) t d
theorem before10 (c : Dev nD) (t : Fin cfg0.N) (d) : (dats m 0 c).before 10 t d = iblk m c 10 t := before_in10 m (dats m 0 c) (A_eq m c 10) (after10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays' shares and their split at the region's entry -/

theorem share0 (c : Dev nD) : (dats m 0 c).share 0 = fullShare.left := rfl
theorem share1 (c : Dev nD) : (dats m 0 c).share 1 = fullShare.right := rfl
theorem share_rest (c : Dev nD) (w : Fin cfg0.W) (h0 : w ≠ 0) (h1 : w ≠ 1) : (dats m 0 c).share w = fullShare := by
  fin_cases w
  · exact absurd rfl h0
  · exact absurd rfl h1
  all_goals rfl

/-- The eleven distinct buffers behind the twelve windows' arrays, each whole at the full share as the region finds
    it, make the windows' arrays at their shares: the adjacency array's full share is split into its two halves,
    one for each of the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have harrs : (dats m 0 c).arrays ((dats m 0 c).arrAt · 0)
      = bigSep Finset.univ fun w : Fin 12 =>
          ((((c : Thread nD τ).loc (Pipeline.arrRef spec0 w)) ↦{(dats m 0 c).share w} V m c (Pipeline.arrRef spec0 w)) : sProp 𝕄) := by
    unfold Dat.arrays
    exact bigSep_congr fun w _ => by rw [(arr_whole0 w).set_eq_univ]; rfl
  rw [harrs, bigSep_W0]
  have hbufs : (Pipeline.arrBufs (Ix := Unit) (Name := ℕ) (U := UR sig nD τ) (Lvl := ℕ) spec0 c (V m c) : sProp 𝕄)
      = iprop((((c : Thread nD τ).loc main_v2) ↦{fullShare} V m c main_v2) ∗ (((c : Thread nD τ).loc main_v0) ↦{fullShare} V m c main_v0) ∗ (((c : Thread nD τ).loc main_v1) ↦{fullShare} V m c main_v1) ∗ (((c : Thread nD τ).loc main_arg2) ↦{fullShare} V m c main_arg2) ∗ (((c : Thread nD τ).loc main_arg4) ↦{fullShare} V m c main_arg4) ∗ (((c : Thread nD τ).loc main_v3) ↦{fullShare} V m c main_v3) ∗ (((c : Thread nD τ).loc main_arg6) ↦{fullShare} V m c main_arg6) ∗ (((c : Thread nD τ).loc main_v4) ↦{fullShare} V m c main_v4) ∗ (((c : Thread nD τ).loc main_arg8) ↦{fullShare} V m c main_arg8) ∗ (((c : Thread nD τ).loc main_v5) ↦{fullShare} V m c main_v5) ∗ (((c : Thread nD τ).loc main_v6) ↦{fullShare} V m c main_v6)) := by
    unfold Pipeline.arrBufs
    exact bigSep_eq_bigSepL_of_eq [main_v2, main_v0, main_v1, main_arg2, main_arg4, main_v3, main_arg6, main_v4, main_arg8, main_v5, main_v6]
      (by decide) (by decide) _
  rw [hbufs]
  rw [share0, share1, share_rest m c 2 (by decide) (by decide), share_rest m c 3 (by decide) (by decide),
    share_rest m c 4 (by decide) (by decide), share_rest m c 5 (by decide) (by decide), share_rest m c 6 (by decide) (by decide),
    share_rest m c 7 (by decide) (by decide), share_rest m c 8 (by decide) (by decide), share_rest m c 9 (by decide) (by decide),
    share_rest m c 10 (by decide) (by decide), share_rest m c 11 (by decide) (by decide)]
  iintro ⟨Hv2, Hv0, Hv1, Ha2, Ha4, Hv3, Ha6, Hv4, Ha8, Hv5, Hv6⟩
  icases (pointsTo_share (PosShare.mem_left_op_right fullShare)).1 $$ Hv2 with ⟨HL, HR⟩
  isplitl [HL]; · iexact HL
  isplitl [HR]; · iexact HR
  isplitl [Hv0]; · iexact Hv0
  isplitl [Hv1]; · iexact Hv1
  isplitl [Ha2]; · iexact Ha2
  isplitl [Ha4]; · iexact Ha4
  isplitl [Hv3]; · iexact Hv3
  isplitl [Ha6]; · iexact Ha6
  isplitl [Hv4]; · iexact Hv4
  isplitl [Ha8]; · iexact Ha8
  isplitl [Hv5]; · iexact Hv5
  iexact Hv6

/-! ## The run and the frame -/

set_option backward.isDefEq.respectTransparency.types false in
/-- From any memory with zero counters every weakly fair execution of @main terminates, every array of the pipeline
    ends at what the proof data compute, and every other unscoped buffer ends as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- info: 'Cert.KernelIdeal.Hand.run_main' depends on axioms: [propext, Classical.choice, Quot.sound] -/
#guard_msgs in #print axioms run_main

/-- The ten argument arrays end as launched: the four that are windows' arrays (the current state and the three
    weight matrices) are inputs, never written back; the other six are no window's array, bypass the region, and no
    reshape writes them. With them, the result array ends at what the proof data compute of the output window. -/
theorem run_args : θ_run defs (onTc (τ := τ) (main (F := F))) ⟨m, fun _ => 0, ρ⟩ (fun r => ∀ c : Dev nD,
      r.2.mem ((c.tc : Thread nD τ).loc main_v6) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c).1 11,
     ((h c).2 main_arg0 (Pipeline.mem_restRefs_of main_arg0 (by decide) (by decide))).trans (V_kept m c main_arg0 (by decide) (by decide) (by decide) (by decide) (by decide) (by decide)),
     ((h c).2 main_arg1 (Pipeline.mem_restRefs_of main_arg1 (by decide) (by decide))).trans (V_kept m c main_arg1 (by decide) (by decide) (by decide) (by decide) (by decide) (by decide)),
     ((h c).1 4).trans (((dats m 0 c).arrAt_in 4 rfl _).trans ((A_eq m c 4).trans (V_kept m c main_arg2 (by decide) (by decide) (by decide) (by decide) (by decide) (by decide)))),
     ((h c).2 main_arg3 (Pipeline.mem_restRefs_of main_arg3 (by decide) (by decide))).trans (V_kept m c main_arg3 (by decide) (by decide) (by decide) (by decide) (by decide) (by decide)),
     ((h c).1 5).trans (((dats m 0 c).arrAt_in 5 rfl _).trans ((A_eq m c 5).trans (V_kept m c main_arg4 (by decide) (by decide) (by decide) (by decide) (by decide) (by decide)))),
     ((h c).2 main_arg5 (Pipeline.mem_restRefs_of main_arg5 (by decide) (by decide))).trans (V_kept m c main_arg5 (by decide) (by decide) (by decide) (by decide) (by decide) (by decide)),
     ((h c).1 7).trans (((dats m 0 c).arrAt_in 7 rfl _).trans ((A_eq m c 7).trans (V_kept m c main_arg6 (by decide) (by decide) (by decide) (by decide) (by decide) (by decide)))),
     ((h c).2 main_arg7 (Pipeline.mem_restRefs_of main_arg7 (by decide) (by decide))).trans (V_kept m c main_arg7 (by decide) (by decide) (by decide) (by decide) (by decide) (by decide)),
     ((h c).1 9).trans (((dats m 0 c).arrAt_in 9 rfl _).trans ((A_eq m c 9).trans (V_kept m c main_arg8 (by decide) (by decide) (by decide) (by decide) (by decide) (by decide)))),
     ((h c).2 main_arg9 (Pipeline.mem_restRefs_of main_arg9 (by decide) (by decide))).trans (V_kept m c main_arg9 (by decide) (by decide) (by decide) (by decide) (by decide) (by decide))⟩)
    (run_main m ρ)

/-- THE FRAME: the program runs to the end, faults nowhere, and leaves its ten argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_args m ρ)

end Cert.KernelIdeal.Hand

end
-- ==== Proof.LibConcat3.lean ====
/-
  Three arrays of shape `[R, 64]` joined along their second axis into `[R, 192]`, read at the entry `(p, l)`:
  the entry `(p, l)` of the first for `l < 64`, `(p, l − 64)` of the second for `64 ≤ l < 128`, and
  `(p, l − 128)` of the third otherwise.
-/
import Idealize.ShloMosaic.Lib.Pipeline.Value
import Idealize.ShloMosaic.Lib.ValueIdx

noncomputable section

namespace Idealize.ShloMosaic.Concat3

open Idealize.ShloMosaic Idealize.ShloMosaic.ValueIdx

variable {α : Type}

/-- Three rows of 64 entries side by side, as a row of 192. -/
def row3 (u v x : Fin 64 → α) (l : Fin 192) : α :=
  if h : l.val < 64 then u ⟨l.val, h⟩
  else if h' : l.val < 128 then v ⟨l.val - 64, by omega⟩
  else x ⟨l.val - 128, by omega⟩

/-- The joined array at `(p, l)` is the row `p` of the three operands side by side, at `l`. -/
theorem concatenate_apply {R : Nat} (a b c : (⟨2, ![R, 64]⟩ : Shape).Idx → α)
    (h : Shape.Concatenates ([(⟨(⟨2, ![R, 64]⟩ : Shape), a⟩ : (s : Shape) × (s.Idx → α)), ⟨(⟨2, ![R, 64]⟩ : Shape), b⟩, ⟨(⟨2, ![R, 64]⟩ : Shape), c⟩].map (·.1))
      (⟨2, ![R, 192]⟩ : Shape) 1)
    (p : Fin R) (l : Fin 192) :
    concatenate (⟨2, ![R, 192]⟩ : Shape) 1 [⟨(⟨2, ![R, 64]⟩ : Shape), a⟩, ⟨(⟨2, ![R, 64]⟩ : Shape), b⟩, ⟨(⟨2, ![R, 64]⟩ : Shape), c⟩] h (ix2 p l)
      = row3 (fun j => a (ix2 p j)) (fun j => b (ix2 p j)) (fun j => c (ix2 p j)) l := by
  unfold row3
  have hoff : ∀ (q : Fin 64) (bb : Fin 2), bb.cast (rfl : (⟨2, ![R, 64]⟩ : Shape).rank = (⟨2, ![R, 192]⟩ : Shape).rank) ≠ (1 : Fin 2) →
      ((ix2 p q : (⟨2, ![R, 64]⟩ : Shape).Idx) bb).val = ((ix2 p l : (⟨2, ![R, 192]⟩ : Shape).Idx) (bb.cast rfl)).val := by
    intro q bb hb
    match bb, hb with
    | ⟨0, _⟩, _ => rfl
    | ⟨1, _⟩, hb => exact absurd rfl hb
  by_cases h1 : l.val < 64
  · rw [dif_pos h1]
    exact concatenate_apply_piece 1 _ h (ix2 p l) 0 (by show 0 < 3; omega) _ a rfl rfl 0 rfl (ix2 p ⟨l.val, h1⟩) (hoff _) (by show 0 + l.val = l.val; omega)
  · rw [dif_neg h1]
    by_cases h2 : l.val < 128
    · rw [dif_pos h2]
      exact concatenate_apply_piece 1 _ h (ix2 p l) 1 (by show 1 < 3; omega) _ b rfl rfl 64 rfl (ix2 p ⟨l.val - 64, by omega⟩) (hoff _)
        (by show 64 + (l.val - 64) = l.val; omega)
    · rw [dif_neg h2]
      exact concatenate_apply_piece 1 _ h (ix2 p l) 2 (by show 2 < 3; omega) _ c rfl rfl 128 rfl (ix2 p ⟨l.val - 128, by omega⟩) (hoff _)
        (by show 128 + (l.val - 128) = l.val; have := l.isLt; omega)

end Idealize.ShloMosaic.Concat3

end
-- ==== Proof.Spec.lean ====
/-
  The specification: one gated update of a node's state from the states of its neighbours.

  For node `i` the incoming aggregate is `u j = Σ_k A[0, i, k] · s_in[k, j]`, the outgoing aggregate
  `v j = Σ_k A[1, i, k] · s_out[k, j]`, and `x = state[i, ·]`.  With the row `[u | v | x]` of 192 entries,
  the reset gate is `r = σ([u | v | x] · W_r + b_r)`, the update gate `z = σ([u | v | x] · W_z + b_z)`, the
  candidate `h = tanh([u | v | r ⊙ x] · W_h + b_h)`, and the new state is `(1 − z) ⊙ x + z ⊙ h`.
  Everything is read on the extended reals; `σ x = 1 / (1 + e^(−x))` is the logistic function with its values
  `0` and `1` at the infinities.  The constant `1` of `1 − z` is kept as the word both programs print.
-/
import Idealize.ShloMosaic.PureOps.Ideal
import Idealize.ShloMosaic.PureOps.Ideal.Laws
import Idealize.ShloMosaic.PureOps.IdealRules
import Idealize.ShloMosaic.Lib.ValueIdx
import proofs.«124932_g33844342292619_cont_8to1_b_602_5_alg».proof.Proof.LibConcat3

noncomputable section

open scoped BigOperators

namespace Cert.Spec

open Idealize.ShloMosaic Idealize.ShloMosaic.ValueIdx

/-- The row `[u | v | x]`: three rows of 64 entries side by side. -/
abbrev catRow (u v x : Fin 64 → EReal) : Fin 192 → EReal := Concat3.row3 u v x

/-- Entry `q` of `row · W + b`. -/
def lin (W : (⟨2, ![192, 64]⟩ : Shape).Idx → EReal) (b : (⟨1, ![64]⟩ : Shape).Idx → EReal)
    (row : Fin 192 → EReal) (q : Fin 64) : EReal :=
  (∑ l : Fin 192, row l * W (ix2 l q)) + b (ix1 q)

/-- Entry `q` of the new state of a node whose aggregates are `u`, `v` and whose state is `x`. -/
def cell (Wr : (⟨2, ![192, 64]⟩ : Shape).Idx → EReal) (br : (⟨1, ![64]⟩ : Shape).Idx → EReal)
    (Wz : (⟨2, ![192, 64]⟩ : Shape).Idx → EReal) (bz : (⟨1, ![64]⟩ : Shape).Idx → EReal)
    (Wh : (⟨2, ![192, 64]⟩ : Shape).Idx → EReal) (bh : (⟨1, ![64]⟩ : Shape).Idx → EReal)
    (u v x : Fin 64 → EReal) (q : Fin 64) : EReal :=
  (Ideal.ofBits .f32 0x3F800000#32 - Ideal.logistic (lin Wz bz (catRow u v x) q)) * x q
    + Ideal.logistic (lin Wz bz (catRow u v x) q)
      * Ideal.tanh (lin Wh bh (catRow u v fun j => Ideal.logistic (lin Wr br (catRow u v x) j) * x j) q)

/-- The new state of node `p`, entry `q`, from the argument arrays. -/
def Gpq (sin sout : (⟨3, ![1, 8192, 64]⟩ : Shape).Idx → EReal) (sc : (⟨2, ![4096, 64]⟩ : Shape).Idx → EReal)
    (A : (⟨3, ![2, 4096, 8192]⟩ : Shape).Idx → EReal)
    (Wr : (⟨2, ![192, 64]⟩ : Shape).Idx → EReal) (br : (⟨1, ![64]⟩ : Shape).Idx → EReal)
    (Wz : (⟨2, ![192, 64]⟩ : Shape).Idx → EReal) (bz : (⟨1, ![64]⟩ : Shape).Idx → EReal)
    (Wh : (⟨2, ![192, 64]⟩ : Shape).Idx → EReal) (bh : (⟨1, ![64]⟩ : Shape).Idx → EReal)
    (p : Fin 4096) (q : Fin 64) : EReal :=
  cell Wr br Wz bz Wh bh
    (fun j => ∑ k : Fin 8192, A (ix3 (0 : Fin 2) p k) * sin (ix3 (0 : Fin 1) k j))
    (fun j => ∑ k : Fin 8192, A (ix3 (1 : Fin 2) p k) * sout (ix3 (0 : Fin 1) k j))
    (fun j => sc (ix2 p j)) q

/-- The whole new state array. -/
def G (sin sout : (⟨3, ![1, 8192, 64]⟩ : Shape).Idx → EReal) (sc : (⟨2, ![4096, 64]⟩ : Shape).Idx → EReal)
    (A : (⟨3, ![2, 4096, 8192]⟩ : Shape).Idx → EReal)
    (Wr : (⟨2, ![192, 64]⟩ : Shape).Idx → EReal) (br : (⟨1, ![64]⟩ : Shape).Idx → EReal)
    (Wz : (⟨2, ![192, 64]⟩ : Shape).Idx → EReal) (bz : (⟨1, ![64]⟩ : Shape).Idx → EReal)
    (Wh : (⟨2, ![192, 64]⟩ : Shape).Idx → EReal) (bh : (⟨1, ![64]⟩ : Shape).Idx → EReal) :
    (⟨2, ![4096, 64]⟩ : Shape).Idx → EReal :=
  fun i => Gpq sin sout sc A Wr br Wz bz Wh bh (i 0) (i 1)

theorem G_ix2 (sin sout : (⟨3, ![1, 8192, 64]⟩ : Shape).Idx → EReal) (sc : (⟨2, ![4096, 64]⟩ : Shape).Idx → EReal)
    (A : (⟨3, ![2, 4096, 8192]⟩ : Shape).Idx → EReal)
    (Wr : (⟨2, ![192, 64]⟩ : Shape).Idx → EReal) (br : (⟨1, ![64]⟩ : Shape).Idx → EReal)
    (Wz : (⟨2, ![192, 64]⟩ : Shape).Idx → EReal) (bz : (⟨1, ![64]⟩ : Shape).Idx → EReal)
    (Wh : (⟨2, ![192, 64]⟩ : Shape).Idx → EReal) (bh : (⟨1, ![64]⟩ : Shape).Idx → EReal) (p : Fin 4096) (q : Fin 64) :
    G sin sout sc A Wr br Wz bz Wh bh (ix2 p q) = Gpq sin sout sc A Wr br Wz bz Wh bh p q := rfl

/-- The word `0x3F800000` denotes the real `1`. -/
theorem one_eq : Ideal.ofBits .f32 0x3F800000#32 = 1 := IdealRules.sign_bit.ideal_onePat .f32

/-- The logistic function written out with the printed `1.0`: `1.0 / (1.0 + e^(−x))`. -/
theorem sigmoid_eq (x : EReal) :
    Ideal.div (Ideal.ofBits .f32 0x3F800000#32) (Ideal.ofBits .f32 0x3F800000#32 + Ideal.exp (-x)) = Ideal.logistic x := by
  rw [one_eq]; rfl

end Cert.Spec

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KernelPayload.lean ====
/-
  The kernel body's stored value, read at one entry of the block.

  At `Ideal` the body's matrix products into the zero accumulator are plain sums over the contracted coordinate,
  the joined array `[a_in | a_out | x]` is read piece by piece, a bias row is broadcast along the rows, and the
  pointwise operations act entry by entry.  So entry `(p, q)` of what the body stores is the specification's
  `cell` of row `p` of the two aggregates and of the current-state block.
-/
import proofs.«124932_g33844342292619_cont_8to1_b_602_5_alg».proof.Proof.Gen.KernelIdeal.Skeleton
import proofs.«124932_g33844342292619_cont_8to1_b_602_5_alg».proof.Proof.Spec
import proofs.«124932_g33844342292619_cont_8to1_b_602_5_alg».proof.Proof.LibRowDims
import proofs.«124932_g33844342292619_cont_8to1_b_602_5_alg».proof.Proof.LibConcat3
import Idealize.ShloMosaic.Lib.Pipeline.Value
import Idealize.ShloMosaic.Lib.ValueIdx

noncomputable section

open scoped BigOperators

namespace Cert.KernelIdeal.Payload

open Cert.KernelIdeal Cert.KernelIdeal.Gen
open Idealize.ShloMosaic Idealize.ShloMosaic.ValueIdx

/-- A block of 256 rows of the adjacency array times a state array, into zero: entry `(p, j)` is the sum over the
    8192 columns. -/
theorem agg_apply (v0 : Vec Ideal S256x8192 .f32) (v2 : Vec Ideal S8192x64 .f32) (p : Fin 256) (j : Fin 64) :
    k0_pay2 v0 v2 (ix2 p j) = ∑ k : Fin 8192, v0 (ix2 p k) * v2 (ix2 k j) := by
  unfold k0_pay2
  simp only [shapeCast_self]
  exact RowDims.matmul_plain_zero_apply none v0 v2 p j

/-- The second aggregate is the same product of the other block and the other state array. -/
theorem agg_apply' (v5 : Vec Ideal S256x8192 .f32) (v7 : Vec Ideal S8192x64 .f32) (p : Fin 256) (j : Fin 64) :
    k0_pay3 v5 v7 (ix2 p j) = ∑ k : Fin 8192, v5 (ix2 p k) * v7 (ix2 k j) := by
  unfold k0_pay3
  simp only [shapeCast_self]
  exact RowDims.matmul_plain_zero_apply none v5 v7 p j

/-- A bias row broadcast along the 256 rows: entry `(p, q)` is the row's entry `q`. -/
theorem bias_apply (b : Vec Ideal S1x64 .f32) (p : Fin 256) (q : Fin 64) :
    broadcastTo S256x64 (shapeCast S1x64 b shapeCasts_S1x64_S1x64) broadcasts_S1x64_S256x64 (ix2 p q) = b (ix2 0 q) := by
  rw [shapeCast_self]
  exact broadcastTo_apply b _ (ix2 p q) (ix2 0 q) (fun a => by
    match a with
    | ⟨0, _⟩ => rfl
    | ⟨1, _⟩ => rfl)

/-- The bias row as a function of the column. -/
abbrev biasRow (b : Vec Ideal S1x64 .f32) : (⟨1, ![64]⟩ : Shape).Idx → EReal := fun i => b (ix2 0 (i 0))

/-- A gate's pre-activation: the joined block times a weight matrix, plus the broadcast bias. -/
theorem lin_apply (cat : FVec Ideal S256x192 .f32) (W : Vec Ideal S192x64 .f32) (b : Vec Ideal S1x64 .f32) (p : Fin 256) (q : Fin 64) :
    addf (matmul (φ₂ := .f32) dot_S256x192_S192x64_S256x64_1_0_0_1_n_n none cat W (constant S256x64 .f32 0x00000000#32))
        (broadcastTo S256x64 (shapeCast S1x64 b shapeCasts_S1x64_S1x64) broadcasts_S1x64_S256x64) (ix2 p q)
      = Spec.lin W (biasRow b) (fun l => cat (ix2 p l)) q := by
  show FloatOps.addf (FloatOps.matmul (DotDims.plain 256 192 64) none cat W (constant S256x64 .f32 0x00000000#32) (ix2 p q))
      (broadcastTo S256x64 (shapeCast S1x64 b shapeCasts_S1x64_S1x64) broadcasts_S1x64_S256x64 (ix2 p q)) = _
  rw [bias_apply, RowDims.matmul_plain_zero_apply none cat W p q]
  rfl

section
variable (v0 v5 : Vec Ideal S256x8192 .f32) (v2 v7 : Vec Ideal S8192x64 .f32) (v10 : Vec Ideal S256x64 .f32)

/-- Row `p` of the two aggregates and of the current-state block. -/
abbrev rowU (p : Fin 256) : Fin 64 → EReal := fun j => ∑ k : Fin 8192, v0 (ix2 p k) * v2 (ix2 k j)
abbrev rowV (p : Fin 256) : Fin 64 → EReal := fun j => ∑ k : Fin 8192, v5 (ix2 p k) * v7 (ix2 k j)
abbrev rowX (p : Fin 256) : Fin 64 → EReal := fun j => v10 (ix2 p j)

/-- The joined block `[a_in | a_out | x]` at `(p, l)`. -/
theorem cat_apply (p : Fin 256) (l : Fin 192) :
    k0_pay4 v0 v2 v5 v7 v10 (ix2 p l) = Spec.catRow (rowU v0 v2 p) (rowV v5 v7 p) (rowX v10 p) l := by
  unfold k0_pay4
  refine (Concat3.concatenate_apply (R := 256) (k0_pay2 v0 v2) (k0_pay3 v5 v7) v10 _ p l).trans ?_
  show Concat3.row3 _ _ _ l = Concat3.row3 _ _ _ l
  congr 1
  · funext j; exact agg_apply v0 v2 p j
  · funext j; exact agg_apply' v5 v7 p j

/-- The update gate at `(p, q)`. -/
theorem z_apply (Wz : Vec Ideal S192x64 .f32) (bz : Vec Ideal S1x64 .f32) (p : Fin 256) (q : Fin 64) :
    k0_pay5 v0 v2 v5 v7 v10 Wz bz (ix2 p q)
      = Ideal.logistic (Spec.lin Wz (biasRow bz) (Spec.catRow (rowU v0 v2 p) (rowV v5 v7 p) (rowX v10 p)) q) := by
  unfold k0_pay5
  show FloatOps.logistic (addf (matmul (φ₂ := .f32) dot_S256x192_S192x64_S256x64_1_0_0_1_n_n none (k0_pay4 v0 v2 v5 v7 v10) Wz (constant S256x64 .f32 0x00000000#32))
        (broadcastTo S256x64 (shapeCast S1x64 bz shapeCasts_S1x64_S1x64) broadcasts_S1x64_S256x64) (ix2 p q)) = _
  rw [lin_apply]
  show Ideal.logistic _ = Ideal.logistic _
  congr 2
  funext l; exact cat_apply v0 v5 v2 v7 v10 p l

/-- The reset gate at `(p, j)`, as it stands inside the candidate's pre-activation. -/
theorem r_apply (Wr : Vec Ideal S192x64 .f32) (br : Vec Ideal S1x64 .f32) (p : Fin 256) (j : Fin 64) :
    logistic (addf (matmul (φ₂ := .f32) dot_S256x192_S192x64_S256x64_1_0_0_1_n_n none (k0_pay4 v0 v2 v5 v7 v10) Wr (constant S256x64 .f32 0x00000000#32))
        (broadcastTo S256x64 (shapeCast S1x64 br shapeCasts_S1x64_S1x64) broadcasts_S1x64_S256x64)) (ix2 p j)
      = Ideal.logistic (Spec.lin Wr (biasRow br) (Spec.catRow (rowU v0 v2 p) (rowV v5 v7 p) (rowX v10 p)) j) := by
  show FloatOps.logistic (addf (matmul (φ₂ := .f32) dot_S256x192_S192x64_S256x64_1_0_0_1_n_n none (k0_pay4 v0 v2 v5 v7 v10) Wr (constant S256x64 .f32 0x00000000#32))
        (broadcastTo S256x64 (shapeCast S1x64 br shapeCasts_S1x64_S1x64) broadcasts_S1x64_S256x64) (ix2 p j)) = _
  rw [lin_apply]
  show Ideal.logistic _ = Ideal.logistic _
  congr 2
  funext l; exact cat_apply v0 v5 v2 v7 v10 p l

/-- The candidate's product `[a_in | a_out | r ⊙ x] · W_h` at `(p, q)`. -/
theorem h_apply (Wr : Vec Ideal S192x64 .f32) (br : Vec Ideal S1x64 .f32) (Wh : Vec Ideal S192x64 .f32) (p : Fin 256) (q : Fin 64) :
    k0_pay6 v0 v2 v5 v7 v10 Wr br Wh (ix2 p q)
      = ∑ l : Fin 192, Spec.catRow (rowU v0 v2 p) (rowV v5 v7 p)
          (fun j => Ideal.logistic (Spec.lin Wr (biasRow br) (Spec.catRow (rowU v0 v2 p) (rowV v5 v7 p) (rowX v10 p)) j) * rowX v10 p j) l
          * Wh (ix2 l q) := by
  unfold k0_pay6
  refine (RowDims.matmul_plain_zero_apply none _ Wh p q).trans ?_
  refine Finset.sum_congr rfl fun l _ => ?_
  congr 1
  refine (Concat3.concatenate_apply (R := 256) (k0_pay2 v0 v2) (k0_pay3 v5 v7) _ _ p l).trans ?_
  show Concat3.row3 _ _ _ l = Concat3.row3 _ _ _ l
  congr 1
  · funext j; exact agg_apply v0 v2 p j
  · funext j; exact agg_apply' v5 v7 p j
  · funext j
    show FloatOps.mulf _ _ = _
    rw [r_apply]
    rfl

/-- THE STORED VALUE at `(p, q)`: the specification's cell of row `p` of the aggregates and of the state block. -/
theorem pay_cell (Wr : Vec Ideal S192x64 .f32) (br : Vec Ideal S1x64 .f32) (Wz : Vec Ideal S192x64 .f32) (bz : Vec Ideal S1x64 .f32)
    (Wh : Vec Ideal S192x64 .f32) (bh : Vec Ideal S1x64 .f32) (p : Fin 256) (q : Fin 64) :
    k0_pay1 v10 (k0_pay5 v0 v2 v5 v7 v10 Wz bz) (k0_pay6 v0 v2 v5 v7 v10 Wr br Wh) (k0_pay7 bh) (ix2 p q)
      = Spec.cell Wr (biasRow br) Wz (biasRow bz) Wh (biasRow bh) (rowU v0 v2 p) (rowV v5 v7 p) (rowX v10 p) q := by
  unfold k0_pay1 k0_pay7
  show FloatOps.addf (FloatOps.mulf (FloatOps.subf (Scalar.ofBits (F := Ideal) .f32 0x3F800000#32) (k0_pay5 v0 v2 v5 v7 v10 Wz bz (ix2 p q))) (v10 (ix2 p q)))
      (FloatOps.mulf (k0_pay5 v0 v2 v5 v7 v10 Wz bz (ix2 p q))
        (FloatOps.tanh (FloatOps.addf (k0_pay6 v0 v2 v5 v7 v10 Wr br Wh (ix2 p q))
          (broadcastTo S256x64 (shapeCast S1x64 bh shapeCasts_S1x64_S1x64) broadcasts_S1x64_S256x64 (ix2 p q))))) = _
  rw [z_apply, h_apply, bias_apply]
  rfl

end

end Cert.KernelIdeal.Payload

end
-- ==== Proof.KernelValue.lean ====
/-
  The kernel's result array at `Ideal`, as one function of the argument arrays.

  Point `t` of the grid works on rows `256·t … 256·t + 255`.  Its first adjacency window is rows `256·t + p` of the
  first half of the adjacency array (edge type 0), its second window the same rows of the second half (edge type 1:
  the reshaped array's rows `4096 + 256·t + p`); the state arrays, weights and biases are whole, each reshape read
  back at an index; the current-state window is rows `256·t + p` of the state.  So what point `t` writes back is
  block `t` of the specification's array, the sixteen blocks tile the 4096 rows, and the result array ends at the
  specification's function of the arguments.
-/
import proofs.«124932_g33844342292619_cont_8to1_b_602_5_alg».proof.Proof.KernelIdealFrame
import proofs.«124932_g33844342292619_cont_8to1_b_602_5_alg».proof.Proof.KernelPayload
import Idealize.ShloMosaic.Lib.Pipeline.Value
import Idealize.ShloMosaic.Lib.StableHlo.Run

set_option maxRecDepth 16384

noncomputable section

open scoped BigOperators

namespace Cert.KernelIdeal.HandValue

open Cert.KernelIdeal Cert.KernelIdeal.Gen Cert.KernelIdeal.Hand Cert.KernelIdeal.Payload
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

/-! ## What the region finds in the reshaped arrays, read at an index -/

/-- The first state array without its leading unit axis. -/
theorem V_v0_apply (c : Dev nD) (k : Fin 8192) (j : Fin 64) :
    V m c main_v0 (ix2 k j) = m ((c : Thread nD τ).loc main_arg0) (ix3 (0 : Fin 1) k j) := by
  have e : (V m c main_v0 : S8192x64.Idx → EReal) = shapeCast S8192x64 (m ((c : Thread nD τ).loc main_arg0)) shapeCasts_S1x8192x64_S8192x64 := by
    dsimp only [V, hostOps0]; after_results; rfl
  rw [e]
  exact shapeCast_apply _ _ (ix2 k j) (ix3 (0 : Fin 1) k j)
    (by rw [Shape.rowMajor_val_three, Shape.rowMajor_val_two]; show (0 * 8192 + k.val) * 64 + j.val = k.val * 64 + j.val; omega)

/-- The second state array without its leading unit axis. -/
theorem V_v1_apply (c : Dev nD) (k : Fin 8192) (j : Fin 64) :
    V m c main_v1 (ix2 k j) = m ((c : Thread nD τ).loc main_arg1) (ix3 (0 : Fin 1) k j) := by
  have e : (V m c main_v1 : S8192x64.Idx → EReal) = shapeCast S8192x64 (m ((c : Thread nD τ).loc main_arg1)) shapeCasts_S1x8192x64_S8192x64 := by
    dsimp only [V, hostOps0]; after_results; rfl
  rw [e]
  exact shapeCast_apply _ _ (ix2 k j) (ix3 (0 : Fin 1) k j)
    (by rw [Shape.rowMajor_val_three, Shape.rowMajor_val_two]; show (0 * 8192 + k.val) * 64 + j.val = k.val * 64 + j.val; omega)

/-- The adjacency array with its two edge types stacked: row `4096·e + p` is row `p` of edge type `e`. -/
theorem V_v2_apply (c : Dev nD) (e : Fin 2) (p : Fin 4096) (k : Fin 8192) (P : Fin 8192) (hP : P.val = e.val * 4096 + p.val) :
    V m c main_v2 (ix2 P k) = m ((c : Thread nD τ).loc main_arg3) (ix3 e p k) := by
  have h : (V m c main_v2 : S8192x8192.Idx → EReal) = shapeCast S8192x8192 (m ((c : Thread nD τ).loc main_arg3)) shapeCasts_S2x4096x8192_S8192x8192 := by
    dsimp only [V, hostOps0]; after_results; rfl
  rw [h]
  exact shapeCast_apply _ _ (ix2 P k) (ix3 e p k)
    (by rw [Shape.rowMajor_val_three, Shape.rowMajor_val_two]; show (e.val * 4096 + p.val) * 8192 + k.val = P.val * 8192 + k.val; rw [hP])

/-- A bias vector as a row. -/
theorem V_v3_apply (c : Dev nD) (q : Fin 64) :
    V m c main_v3 (ix2 (0 : Fin 1) q) = m ((c : Thread nD τ).loc main_arg5) (ix1 q) := by
  have h : (V m c main_v3 : S1x64.Idx → EReal) = shapeCast S1x64 (m ((c : Thread nD τ).loc main_arg5)) shapeCasts_S64_S1x64 := by
    dsimp only [V, hostOps0]; after_results; rfl
  rw [h]
  exact shapeCast_apply _ _ (ix2 (0 : Fin 1) q) (ix1 q)
    (by rw [Shape.rowMajor_val_one, Shape.rowMajor_val_two]; show q.val = 0 * 64 + q.val; omega)

theorem V_v4_apply (c : Dev nD) (q : Fin 64) :
    V m c main_v4 (ix2 (0 : Fin 1) q) = m ((c : Thread nD τ).loc main_arg7) (ix1 q) := by
  have h : (V m c main_v4 : S1x64.Idx → EReal) = shapeCast S1x64 (m ((c : Thread nD τ).loc main_arg7)) shapeCasts_S64_S1x64 := by
    dsimp only [V, hostOps0]; after_results; rfl
  rw [h]
  exact shapeCast_apply _ _ (ix2 (0 : Fin 1) q) (ix1 q)
    (by rw [Shape.rowMajor_val_one, Shape.rowMajor_val_two]; show q.val = 0 * 64 + q.val; omega)

theorem V_v5_apply (c : Dev nD) (q : Fin 64) :
    V m c main_v5 (ix2 (0 : Fin 1) q) = m ((c : Thread nD τ).loc main_arg9) (ix1 q) := by
  have h : (V m c main_v5 : S1x64.Idx → EReal) = shapeCast S1x64 (m ((c : Thread nD τ).loc main_arg9)) shapeCasts_S64_S1x64 := by
    dsimp only [V, hostOps0]; after_results; rfl
  rw [h]
  exact shapeCast_apply _ _ (ix2 (0 : Fin 1) q) (ix1 q)
    (by rw [Shape.rowMajor_val_one, Shape.rowMajor_val_two]; show q.val = 0 * 64 + q.val; omega)

/-! ## The printed index maps, decided over the grid -/

/-- At point `t` the moving windows (the two adjacency windows, the current state, the result) are at block row `t`
    — the second adjacency window sixteen blocks further down — and every other window is at block `(0, 0)`. -/
theorem idx_facts : ∀ t : Fin cfg0.N,
    win0_0.index t (0 : Fin 2) = t.val ∧ win0_0.index t (1 : Fin 2) = 0
    ∧ win0_1.index t (0 : Fin 2) = t.val + 16 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

theorem t_lt (t : Fin cfg0.N) : t.val < 16 := by have h := t.isLt; have hN : cfg0.N = 16 := N_0; omega

/-- The row of the arrays that row `p` of point `t`'s blocks is. -/
abbrev rowAt (t : Fin cfg0.N) (p : Fin 256) : Fin 4096 := ⟨t.val * 256 + p.val, by have := t_lt t; have := p.isLt; omega⟩

/-! ## Each window's block, read off the argument arrays -/

theorem blk0_apply (c : Dev nD) (t : Fin cfg0.N) (p : Fin 256) (k : Fin 8192) :
    iblk m c 0 t (ix2 p k) = m ((c : Thread nD τ).loc main_arg3) (ix3 (0 : Fin 2) (rowAt t p) k) := by
  show V m c main_v2 (((cfg0.win 0).blk t).view.emb (ix2 p k)) = _
  obtain ⟨e0, e1, -⟩ := idx_facts t
  have ht := t_lt t; have hp := p.isLt
  have he : ((cfg0.win 0).blk t).view.emb (ix2 p k) = ix2 (⟨t.val * 256 + p.val, by omega⟩ : Fin 8192) k := by
    funext a; apply Fin.ext
    match a with
    | ⟨0, _⟩ => show win0_0.index t (0 : Fin 2) * 256 + 1 * p.val = t.val * 256 + p.val; rw [e0]; omega
    | ⟨1, _⟩ => show win0_0.index t (1 : Fin 2) * 8192 + 1 * k.val = k.val; rw [e1]; omega
  rw [he]
  exact V_v2_apply m c 0 (rowAt t p) k _ (by show t.val * 256 + p.val = 0 * 4096 + (t.val * 256 + p.val); omega)

theorem blk1_apply (c : Dev nD) (t : Fin cfg0.N) (p : Fin 256) (k : Fin 8192) :
    iblk m c 1 t (ix2 p k) = m ((c : Thread nD τ).loc main_arg3) (ix3 (1 : Fin 2) (rowAt t p) k) := by
  show V m c main_v2 (((cfg0.win 1).blk t).view.emb (ix2 p k)) = _
  obtain ⟨-, -, e0, e1, -⟩ := idx_facts t
  have ht := t_lt t; have hp := p.isLt
  have he : ((cfg0.win 1).blk t).view.emb (ix2 p k) = ix2 (⟨(t.val + 16) * 256 + p.val, by omega⟩ : Fin 8192) k := by
    funext a; apply Fin.ext
    match a with
    | ⟨0, _⟩ => show win0_1.index t (0 : Fin 2) * 256 + 1 * p.val = (t.val + 16) * 256 + p.val; rw [e0]; omega
    | ⟨1, _⟩ => show win0_1.index t (1 : Fin 2) * 8192 + 1 * k.val = k.val; rw [e1]; omega
  rw [he]
  exact V_v2_apply m c 1 (rowAt t p) k _ (by show (t.val + 16) * 256 + p.val = 1 * 4096 + (t.val * 256 + p.val); omega)

theorem blk2_apply (c : Dev nD) (t : Fin cfg0.N) (k : Fin 8192) (j : Fin 64) :
    iblk m c 2 t (ix2 k j) = m ((c : Thread nD τ).loc main_arg0) (ix3 (0 : Fin 1) k j) := by
  show V m c main_v0 (((cfg0.win 2).blk t).view.emb (ix2 k j)) = _
  obtain ⟨-, -, -, -, e0, e1, -⟩ := idx_facts t
  have he : ((cfg0.win 2).blk t).view.emb (ix2 k j) = ix2 k j := by
    funext a; apply Fin.ext
    match a with
    | ⟨0, _⟩ => show win0_2.index t (0 : Fin 2) * 8192 + 1 * k.val = k.val; rw [e0]; omega
    | ⟨1, _⟩ => show win0_2.index t (1 : Fin 2) * 64 + 1 * j.val = j.val; rw [e1]; omega
  rw [he]
  exact V_v0_apply m c k j

theorem blk3_apply (c : Dev nD) (t : Fin cfg0.N) (k : Fin 8192) (j : Fin 64) :
    iblk m c 3 t (ix2 k j) = m ((c : Thread nD τ).loc main_arg1) (ix3 (0 : Fin 1) k j) := by
  show V m c main_v1 (((cfg0.win 3).blk t).view.emb (ix2 k j)) = _
  obtain ⟨-, -, -, -, -, -, e0, e1, -⟩ := idx_facts t
  have he : ((cfg0.win 3).blk t).view.emb (ix2 k j) = ix2 k j := by
    funext a; apply Fin.ext
    match a with
    | ⟨0, _⟩ => show win0_3.index t (0 : Fin 2) * 8192 + 1 * k.val = k.val; rw [e0]; omega
    | ⟨1, _⟩ => show win0_3.index t (1 : Fin 2) * 64 + 1 * j.val = j.val; rw [e1]; omega
  rw [he]
  exact V_v1_apply m c k j

theorem blk4_apply (c : Dev nD) (t : Fin cfg0.N) (p : Fin 256) (j : Fin 64) :
    iblk m c 4 t (ix2 p j) = m ((c : Thread nD τ).loc main_arg2) (ix2 (rowAt t p) j) := by
  show V m c main_arg2 (((cfg0.win 4).blk t).view.emb (ix2 p j)) = _
  obtain ⟨-, -, -, -, -, -, -, -, e0, e1, -⟩ := idx_facts t
  have he : ((cfg0.win 4).blk t).view.emb (ix2 p j) = ix2 (rowAt t p) j := by
    funext a; apply Fin.ext
    match a with
    | ⟨0, _⟩ => show win0_4.index t (0 : Fin 2) * 256 + 1 * p.val = t.val * 256 + p.val; rw [e0]; omega
    | ⟨1, _⟩ => show win0_4.index t (1 : Fin 2) * 64 + 1 * j.val = j.val; rw [e1]; omega
  rw [he, V_kept m c main_arg2 (by decide) (by decide) (by decide) (by decide) (by decide) (by decide)]

/-- A weight matrix's window is the whole matrix, which no reshape writes. -/
theorem blk5_eq (c : Dev nD) (t : Fin cfg0.N) : (iblk m c 5 t : S192x64.Idx → EReal) = m ((c : Thread nD τ).loc main_arg4) := by
  funext y
  show V m c main_arg4 (((cfg0.win 5).blk t).view.emb y) = _
  obtain ⟨-, -, -, -, -, -, -, -, -, -, e0, e1, -⟩ := idx_facts t
  have he : ((cfg0.win 5).blk t).view.emb y = y := by
    funext a; apply Fin.ext
    match a with
    | ⟨0, _⟩ => show win0_5.index t (0 : Fin 2) * 192 + 1 * (y 0).val = (y 0).val; rw [e0]; omega
    | ⟨1, _⟩ => show win0_5.index t (1 : Fin 2) * 64 + 1 * (y 1).val = (y 1).val; rw [e1]; omega
  rw [he, V_kept m c main_arg4 (by decide) (by decide) (by decide) (by decide) (by decide) (by decide)]

theorem blk7_eq (c : Dev nD) (t : Fin cfg0.N) : (iblk m c 7 t : S192x64.Idx → EReal) = m ((c : Thread nD τ).loc main_arg6) := by
  funext y
  show V m c main_arg6 (((cfg0.win 7).blk t).view.emb y) = _
  obtain ⟨-, -, -, -, -, -, -, -, -, -, -, -, -, -, e0, e1, -⟩ := idx_facts t
  have he : ((cfg0.win 7).blk t).view.emb y = y := by
    funext a; apply Fin.ext
    match a with
    | ⟨0, _⟩ => show win0_7.index t (0 : Fin 2) * 192 + 1 * (y 0).val = (y 0).val; rw [e0]; omega
    | ⟨1, _⟩ => show win0_7.index t (1 : Fin 2) * 64 + 1 * (y 1).val = (y 1).val; rw [e1]; omega
  rw [he, V_kept m c main_arg6 (by decide) (by decide) (by decide) (by decide) (by decide) (by decide)]

theorem blk9_eq (c : Dev nD) (t : Fin cfg0.N) : (iblk m c 9 t : S192x64.Idx → EReal) = m ((c : Thread nD τ).loc main_arg8) := by
  funext y
  show V m c main_arg8 (((cfg0.win 9).blk t).view.emb y) = _
  obtain ⟨-, -, -, -, -, -, -, -, -, -, -, -, -, -, -, -, -, -, e0, e1, -⟩ := idx_facts t
  have he : ((cfg0.win 9).blk t).view.emb y = y := by
    funext a; apply Fin.ext
    match a with
    | ⟨0, _⟩ => show win0_9.index t (0 : Fin 2) * 192 + 1 * (y 0).val = (y 0).val; rw [e0]; omega
    | ⟨1, _⟩ => show win0_9.index t (1 : Fin 2) * 64 + 1 * (y 1).val = (y 1).val; rw [e1]; omega
  rw [he, V_kept m c main_arg8 (by decide) (by decide) (by decide) (by decide) (by decide) (by decide)]

/-- A bias row's window is the whole reshaped row: as a function of the column it is the bias vector. -/
theorem blk6_bias (c : Dev nD) (t : Fin cfg0.N) : biasRow (iblk m c 6 t) = m ((c : Thread nD τ).loc main_arg5) := by
  funext i
  obtain ⟨q, rfl⟩ : ∃ q : Fin 64, i = ix1 q := ⟨i 0, eq_ix1 i⟩
  show V m c main_v3 (((cfg0.win 6).blk t).view.emb (ix2 (0 : Fin 1) q)) = _
  obtain ⟨-, -, -, -, -, -, -, -, -, -, -, -, e0, e1, -⟩ := idx_facts t
  have he : ((cfg0.win 6).blk t).view.emb (ix2 (0 : Fin 1) q) = ix2 (0 : Fin 1) q := by
    funext a; apply Fin.ext
    match a with
    | ⟨0, _⟩ => show win0_6.index t (0 : Fin 2) * 1 + 1 * 0 = 0; rw [e0]
    | ⟨1, _⟩ => show win0_6.index t (1 : Fin 2) * 64 + 1 * q.val = q.val; rw [e1]; omega
  rw [he]
  exact V_v3_apply m c q

theorem blk8_bias (c : Dev nD) (t : Fin cfg0.N) : biasRow (iblk m c 8 t) = m ((c : Thread nD τ).loc main_arg7) := by
  funext i
  obtain ⟨q, rfl⟩ : ∃ q : Fin 64, i = ix1 q := ⟨i 0, eq_ix1 i⟩
  show V m c main_v4 (((cfg0.win 8).blk t).view.emb (ix2 (0 : Fin 1) q)) = _
  obtain ⟨-, -, -, -, -, -, -, -, -, -, -, -, -, -, -, -, e0, e1, -⟩ := idx_facts t
  have he : ((cfg0.win 8).blk t).view.emb (ix2 (0 : Fin 1) q) = ix2 (0 : Fin 1) q := by
    funext a; apply Fin.ext
    match a with
    | ⟨0, _⟩ => show win0_8.index t (0 : Fin 2) * 1 + 1 * 0 = 0; rw [e0]
    | ⟨1, _⟩ => show win0_8.index t (1 : Fin 2) * 64 + 1 * q.val = q.val; rw [e1]; omega
  rw [he]
  exact V_v4_apply m c q

theorem blk10_bias (c : Dev nD) (t : Fin cfg0.N) : biasRow (iblk m c 10 t) = m ((c : Thread nD τ).loc main_arg9) := by
  funext i
  obtain ⟨q, rfl⟩ : ∃ q : Fin 64, i = ix1 q := ⟨i 0, eq_ix1 i⟩
  show V m c main_v5 (((cfg0.win 10).blk t).view.emb (ix2 (0 : Fin 1) q)) = _
  obtain ⟨-, -, -, -, -, -, -, -, -, -, -, -, -, -, -, -, -, -, -, -, e0, e1, -⟩ := idx_facts t
  have he : ((cfg0.win 10).blk t).view.emb (ix2 (0 : Fin 1) q) = ix2 (0 : Fin 1) q := by
    funext a; apply Fin.ext
    match a with
    | ⟨0, _⟩ => show win0_10.index t (0 : Fin 2) * 1 + 1 * 0 = 0; rw [e0]
    | ⟨1, _⟩ => show win0_10.index t (1 : Fin 2) * 64 + 1 * q.val = q.val; rw [e1]; omega
  rw [he]
  exact V_v5_apply m c q

/-! ## What point `t` writes back -/

theorem hz : (![0, 0] : Fin 2 → Nat) = fun _ => 0 := funext fun a => by fin_cases a <;> rfl

/-- The specification's array of the launch contents of the ten arguments. -/
abbrev Gm (c : Dev nD) : S4096x64.Idx → EReal :=
  Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The cell is a function of its arguments. -/
theorem cell_congr {Wr Wr' Wz Wz' Wh Wh' : (⟨2, ![192, 64]⟩ : Shape).Idx → EReal} {br br' bz bz' bh bh' : (⟨1, ![64]⟩ : Shape).Idx → EReal}
    {u u' v v' x x' : Fin 64 → EReal} (h1 : Wr = Wr') (h2 : br = br') (h3 : Wz = Wz') (h4 : bz = bz') (h5 : Wh = Wh') (h6 : bh = bh')
    (h7 : u = u') (h8 : v = v') (h9 : x = x') (q : Fin 64) :
    Spec.cell Wr br Wz bz Wh bh u v x q = Spec.cell Wr' br' Wz' bz' Wh' bh' u' v' x' q := by
  subst h1 h2 h3 h4 h5 h6 h7 h8 h9; rfl

/-- WHAT POINT `t` WRITES BACK is block `t` of the specification's array. -/
theorem flushed_eq (c : Dev nD) (t : Fin cfg0.N) :
    (dats m 0 c).flushed 11 t = ((cfg0.win 11).blk t).view.read (Elt Ideal) (Gm m c) := by
  show (cfg0.win 11).cut (grid0.coords t) ((dats m 0 c).after 11 t) = _
  rw [after11]
  unfold outBlk
  rw [View.canon_unit_zero hz]
  simp only [View.ld_unit_zero (S := S256x8192) hz, View.ld_unit_zero (S := S8192x64) hz, View.ld_unit_zero (S := S256x64) hz,
    View.ld_unit_zero (S := S192x64) hz, View.ld_unit_zero (S := S1x64) hz]
  funext j
  obtain ⟨p, q, rfl⟩ : ∃ (p : Fin 256) (q : Fin 64), j = ix2 p q := ⟨j 0, j 1, eq_ix2 j⟩
  show k0_pay1 (iblk m c 4 t)
      (k0_pay5 (iblk m c 0 t) (iblk m c 2 t) (iblk m c 1 t) (iblk m c 3 t) (iblk m c 4 t) (iblk m c 7 t) (iblk m c 8 t))
      (k0_pay6 (iblk m c 0 t) (iblk m c 2 t) (iblk m c 1 t) (iblk m c 3 t) (iblk m c 4 t) (iblk m c 5 t) (iblk m c 6 t) (iblk m c 9 t))
      (k0_pay7 (iblk m c 10 t)) (ix2 p q)
    = Gm m c (((cfg0.win 11).blk t).view.emb (ix2 p q))
  refine (pay_cell (iblk m c 0 t) (iblk m c 1 t) (iblk m c 2 t) (iblk m c 3 t) (iblk m c 4 t) (iblk m c 5 t) (iblk m c 6 t)
    (iblk m c 7 t) (iblk m c 8 t) (iblk m c 9 t) (iblk m c 10 t) p q).trans ?_
  have he : ((cfg0.win 11).blk t).view.emb (ix2 p q) = ix2 (rowAt t p) q := by
    obtain ⟨-, -, -, -, -, -, -, -, -, -, -, -, -, -, -, -, -, -, -, -, -, -, e0, e1⟩ := idx_facts t
    funext a; apply Fin.ext
    match a with
    | ⟨0, _⟩ => show win0_11.index t (0 : Fin 2) * 256 + 1 * p.val = t.val * 256 + p.val; rw [e0]; omega
    | ⟨1, _⟩ => show win0_11.index t (1 : Fin 2) * 64 + 1 * q.val = q.val; rw [e1]; omega
  rw [he]
  show _ = Spec.Gpq _ _ _ _ _ _ _ _ _ _ (rowAt t p) q
  unfold Spec.Gpq
  exact cell_congr (blk5_eq m c t) (blk6_bias m c t) (blk7_eq m c t) (blk8_bias m c t) (blk9_eq m c t) (blk10_bias m c t)
    (funext fun j => Finset.sum_congr rfl fun k _ => by rw [blk0_apply, blk2_apply])
    (funext fun j => Finset.sum_congr rfl fun k _ => by rw [blk1_apply, blk3_apply])
    (funext fun j => blk4_apply m c t p j) q

/-! ## The sixteen blocks tile the result array -/

/-- An index of the array is in point `t`'s block iff each coordinate is in the block's range on its axis. -/
theorem mem_blk (t : Fin cfg0.N) (i : S4096x64.Idx) :
    i ∈ ((cfg0.win 11).blk t).view.set ↔ ∀ a : Fin 2, win0_11.index t a * S256x64.size a ≤ (i a).val
      ∧ (i a).val < win0_11.index t a * S256x64.size a + S256x64.size a := by
  show i ∈ ((View.whole main_v6).slice (win0_11.rect t)).set ↔ _
  rw [View.set_slice_whole, Rect.mem_set_unit]
  exact Iff.rfl

/-- Row `r` of the result is in the block of point `r / 256`. -/
theorem cover (i : S4096x64.Idx) : ∃ t : Fin cfg0.N, (cfg0.win 11).flush t = true ∧ i ∈ ((cfg0.win 11).blk t).view.set := by
  have hi0 : (i 0).val < 4096 := (i 0).isLt
  have hi1 : (i 1).val < 64 := (i 1).isLt
  have hN : cfg0.N = 16 := N_0
  refine ⟨⟨(i 0).val / 256, by rw [hN]; omega⟩, flush0_11 _, ?_⟩
  rw [mem_blk]
  obtain ⟨-, -, -, -, -, -, -, -, -, -, -, -, -, -, -, -, -, -, -, -, -, -, e0, e1⟩ := idx_facts ⟨(i 0).val / 256, by rw [hN]; omega⟩
  intro a
  match a with
  | ⟨0, _⟩ =>
    show win0_11.index _ (0 : Fin 2) * 256 ≤ (i 0).val ∧ (i 0).val < win0_11.index _ (0 : Fin 2) * 256 + 256
    rw [e0]; show (i 0).val / 256 * 256 ≤ (i 0).val ∧ (i 0).val < (i 0).val / 256 * 256 + 256; omega
  | ⟨1, _⟩ =>
    show win0_11.index _ (1 : Fin 2) * 64 ≤ (i 1).val ∧ (i 1).val < win0_11.index _ (1 : Fin 2) * 64 + 64
    rw [e1]; omega

/-- THE RESULT ARRAY after the run is the specification's function of the arguments. -/
theorem final (c : Dev nD) : (dats m 0 c).arrAt 11 cfg0.N = Gm m c :=
  (dats m 0 c).arrAt_eq_of_cover 11 (Gm m c) (fun t _ => flushed_eq m c t) (cover)

/-! ## The run, read -/

/-- Every weakly fair execution terminates with the result array at the specification's function of the arguments
    and the arguments unchanged. -/
theorem run : θ_run defs (onTc (τ := τ) (main (F := Ideal))) ⟨m, fun _ => 0, ρ⟩ (fun r => ∀ c : Dev nD,
      r.2.mem ((c.tc : Thread nD τ).loc main_v6) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (final m c), (h c).2⟩) (run_args (F := Ideal) m ρ)

end Cert.KernelIdeal.HandValue

end
-- ==== Proof.RefValue.lean ====
/-
  The reference's value: its run read back operation by operation, and that the composed term is the
  specification's function of the argument arrays.

  The reference slices the two edge types out of the adjacency array, multiplies each by its state array, joins
  the two aggregates with the current state, and applies the three gates; its sigmoid is written out as
  `1 / (1 + e^(−x))`, which is the logistic function, and its products are the sums the specification states.
-/
import proofs.«124932_g33844342292619_cont_8to1_b_602_5_alg».proof.Proof.Gen.ReferenceIdeal.Run
import proofs.«124932_g33844342292619_cont_8to1_b_602_5_alg».proof.Proof.Gen.ReferenceIdeal.Read
import proofs.«124932_g33844342292619_cont_8to1_b_602_5_alg».proof.Proof.Spec
import proofs.«124932_g33844342292619_cont_8to1_b_602_5_alg».proof.Proof.LibConcat3

noncomputable section

open scoped BigOperators

namespace Cert.ReferenceIdeal.RefValue

open Cert.ReferenceIdeal Cert.ReferenceIdeal.Gen Cert.ReferenceIdeal.Read
open Idealize.ShloMosaic Idealize.ShloMosaic.ValueIdx

section
variable (x0 x1 : (⟨S1x8192x64, .f32⟩ : BufTy).Contents (Elt Ideal)) (x2 : (⟨S4096x64, .f32⟩ : BufTy).Contents (Elt Ideal)) (x3 : (⟨S2x4096x8192, .f32⟩ : BufTy).Contents (Elt Ideal))

/-- Row `p` of the incoming aggregate, of the outgoing aggregate and of the current state. -/
abbrev rowU (p : Fin 4096) : Fin 64 → EReal := fun j => ∑ k : Fin 8192, x3 (ix3 (0 : Fin 2) p k) * x0 (ix3 (0 : Fin 1) k j)
abbrev rowV (p : Fin 4096) : Fin 64 → EReal := fun j => ∑ k : Fin 8192, x3 (ix3 (1 : Fin 2) p k) * x1 (ix3 (0 : Fin 1) k j)
abbrev rowX (p : Fin 4096) : Fin 64 → EReal := fun j => x2 (ix2 p j)

/-- The incoming aggregate: edge type 0 of the adjacency array times the first state array. -/
theorem aggIn_apply (p : Fin 4096) (j : Fin 64) : val_main_v6 (F := Ideal) x0 x3 (ix2 p j) = rowU x0 x3 p j := by
  rw [val_main_v6_apply]
  refine Finset.sum_congr rfl fun k _ => ?_
  rw [val_main_v3_apply, val_main_v2_apply, val_main_v0_apply]
  have e1 : idx_main_v2 (idx_main_v3 (lidx_main_v6 (ix2 p j) k)) = ix3 (0 : Fin 2) p k := by
    have hp := p.isLt; have hk := k.isLt
    funext a; apply Fin.ext
    match a with
    | ⟨0, _⟩ => rfl
    | ⟨1, _⟩ => show (p.val * 8192 + k.val) / 8192 % 4096 = p.val; omega
    | ⟨2, _⟩ => show (p.val * 8192 + k.val) % 8192 = k.val; omega
  have e2 : idx_main_v0 (ridx_main_v6 (ix2 p j) k) = ix3 (0 : Fin 1) k j := by
    have hj := j.isLt; have hk := k.isLt
    funext a; apply Fin.ext
    match a with
    | ⟨0, _⟩ => rfl
    | ⟨1, _⟩ => show (k.val * 64 + j.val) / 64 % 8192 = k.val; omega
    | ⟨2, _⟩ => show (k.val * 64 + j.val) % 64 = j.val; omega
  rw [e1, e2]

/-- The outgoing aggregate: edge type 1 times the second state array. -/
theorem aggOut_apply (p : Fin 4096) (j : Fin 64) : val_main_v7 (F := Ideal) x1 x3 (ix2 p j) = rowV x1 x3 p j := by
  rw [val_main_v7_apply]
  refine Finset.sum_congr rfl fun k _ => ?_
  rw [val_main_v5_apply, val_main_v4_apply, val_main_v1_apply]
  have e1 : idx_main_v4 (idx_main_v5 (lidx_main_v7 (ix2 p j) k)) = ix3 (1 : Fin 2) p k := by
    have hp := p.isLt; have hk := k.isLt
    funext a; apply Fin.ext
    match a with
    | ⟨0, _⟩ => rfl
    | ⟨1, _⟩ => show (p.val * 8192 + k.val) / 8192 % 4096 = p.val; omega
    | ⟨2, _⟩ => show (p.val * 8192 + k.val) % 8192 = k.val; omega
  have e2 : idx_main_v1 (ridx_main_v7 (ix2 p j) k) = ix3 (0 : Fin 1) k j := by
    have hj := j.isLt; have hk := k.isLt
    funext a; apply Fin.ext
    match a with
    | ⟨0, _⟩ => rfl
    | ⟨1, _⟩ => show (k.val * 64 + j.val) / 64 % 8192 = k.val; omega
    | ⟨2, _⟩ => show (k.val * 64 + j.val) % 64 = j.val; omega
  rw [e1, e2]

/-- The joined array `[a_in | a_out | x]` at `(p, l)`. -/
theorem cat_apply (p : Fin 4096) (l : Fin 192) :
    val_main_v8 (F := Ideal) x0 x1 x2 x3 (ix2 p l) = Spec.catRow (rowU x0 x3 p) (rowV x1 x3 p) (rowX x2 p) l := by
  unfold val_main_v8
  refine (Concat3.concatenate_apply (R := 4096) (val_main_v6 (F := Ideal) x0 x3) (val_main_v7 (F := Ideal) x1 x3) x2 _ p l).trans ?_
  show Concat3.row3 _ _ _ l = Concat3.row3 _ _ _ l
  congr 1
  · funext j; exact aggIn_apply x0 x3 p j
  · funext j; exact aggOut_apply x1 x3 p j

end

/-- A bias vector broadcast to a row and then along the rows, at `(p, q)`, is its entry `q` (the three biases are
    broadcast by the same two operations). -/
theorem bias_idx (p : Fin 4096) (q : Fin 64) : idx_main_v10 (idx_main_v11 (ix2 p q)) = ix1 q := by
  funext a; apply Fin.ext
  match a with
  | ⟨0, _⟩ => rfl

theorem lidx_eq (p : Fin 4096) (q : Fin 64) (k : Fin 192) : lidx_main_v9 (ix2 p q) k = ix2 p k := by
  funext a; apply Fin.ext
  match a with
  | ⟨0, _⟩ => rfl
  | ⟨1, _⟩ => rfl

theorem ridx_eq (p : Fin 4096) (q : Fin 64) (k : Fin 192) : ridx_main_v9 (ix2 p q) k = ix2 k q := by
  funext a; apply Fin.ext
  match a with
  | ⟨0, _⟩ => rfl
  | ⟨1, _⟩ => rfl

section
variable (x0 x1 : (⟨S1x8192x64, .f32⟩ : BufTy).Contents (Elt Ideal)) (x2 : (⟨S4096x64, .f32⟩ : BufTy).Contents (Elt Ideal)) (x3 : (⟨S2x4096x8192, .f32⟩ : BufTy).Contents (Elt Ideal))
  (x4 : (⟨S192x64, .f32⟩ : BufTy).Contents (Elt Ideal)) (x5 : (⟨S64, .f32⟩ : BufTy).Contents (Elt Ideal))
  (x6 : (⟨S192x64, .f32⟩ : BufTy).Contents (Elt Ideal)) (x7 : (⟨S64, .f32⟩ : BufTy).Contents (Elt Ideal))
  (x8 : (⟨S192x64, .f32⟩ : BufTy).Contents (Elt Ideal)) (x9 : (⟨S64, .f32⟩ : BufTy).Contents (Elt Ideal))

/-- The reset gate's pre-activation. -/
theorem linR_apply (p : Fin 4096) (q : Fin 64) :
    val_main_v12 (F := Ideal) x0 x1 x2 x3 x4 x5 (ix2 p q) = Spec.lin x4 x5 (Spec.catRow (rowU x0 x3 p) (rowV x1 x3 p) (rowX x2 p)) q := by
  rw [val_main_v12_apply, val_main_v9_apply, val_main_v11_apply, val_main_v10_apply]
  show (∑ k : Fin 192, _) + _ = _
  unfold Spec.lin
  congr 1
  · refine Finset.sum_congr rfl fun k _ => ?_
    rw [show lidx_main_v9 (ix2 p q) k = ix2 p k from lidx_eq p q k, show ridx_main_v9 (ix2 p q) k = ix2 k q from ridx_eq p q k, cat_apply]
  · exact congrArg x5 (bias_idx p q)

/-- The reset gate: the written-out sigmoid of its pre-activation is the logistic function of it. -/
theorem r_apply (p : Fin 4096) (j : Fin 64) :
    val_main_v18 (F := Ideal) x0 x1 x2 x3 x4 x5 (ix2 p j)
      = Ideal.logistic (Spec.lin x4 x5 (Spec.catRow (rowU x0 x3 p) (rowV x1 x3 p) (rowX x2 p)) j) := by
  rw [val_main_v18_apply, val_main_v17_apply, val_main_cst_0_apply, val_main_v16_apply, val_main_v15_apply, val_main_cst_apply,
    val_main_v14_apply, val_main_v13_apply, linR_apply]
  exact Spec.sigmoid_eq _

/-- The update gate's pre-activation and the gate. -/
theorem linZ_apply (p : Fin 4096) (q : Fin 64) :
    val_main_v22 (F := Ideal) x0 x1 x2 x3 x6 x7 (ix2 p q) = Spec.lin x6 x7 (Spec.catRow (rowU x0 x3 p) (rowV x1 x3 p) (rowX x2 p)) q := by
  rw [val_main_v22_apply, val_main_v19_apply, val_main_v21_apply, val_main_v20_apply]
  show (∑ k : Fin 192, _) + _ = _
  unfold Spec.lin
  congr 1
  · refine Finset.sum_congr rfl fun k _ => ?_
    rw [show lidx_main_v19 (ix2 p q) k = ix2 p k from lidx_eq p q k, show ridx_main_v19 (ix2 p q) k = ix2 k q from ridx_eq p q k, cat_apply]
  · exact congrArg x7 (bias_idx p q)

theorem z_apply (p : Fin 4096) (q : Fin 64) :
    val_main_v28 (F := Ideal) x0 x1 x2 x3 x6 x7 (ix2 p q)
      = Ideal.logistic (Spec.lin x6 x7 (Spec.catRow (rowU x0 x3 p) (rowV x1 x3 p) (rowX x2 p)) q) := by
  rw [val_main_v28_apply, val_main_v27_apply, val_main_cst_2_apply, val_main_v26_apply, val_main_v25_apply, val_main_cst_1_apply,
    val_main_v24_apply, val_main_v23_apply, linZ_apply]
  exact Spec.sigmoid_eq _

/-- The joined array `[a_in | a_out | r ⊙ x]` at `(p, l)`. -/
theorem cat2_apply (p : Fin 4096) (l : Fin 192) :
    val_main_v30 (F := Ideal) x0 x1 x2 x3 x4 x5 (ix2 p l)
      = Spec.catRow (rowU x0 x3 p) (rowV x1 x3 p)
          (fun j => Ideal.logistic (Spec.lin x4 x5 (Spec.catRow (rowU x0 x3 p) (rowV x1 x3 p) (rowX x2 p)) j) * rowX x2 p j) l := by
  unfold val_main_v30
  refine (Concat3.concatenate_apply (R := 4096) (val_main_v6 (F := Ideal) x0 x3) (val_main_v7 (F := Ideal) x1 x3)
    (val_main_v29 (F := Ideal) x0 x1 x2 x3 x4 x5) _ p l).trans ?_
  show Concat3.row3 _ _ _ l = Concat3.row3 _ _ _ l
  congr 1
  · funext j; exact aggIn_apply x0 x3 p j
  · funext j; exact aggOut_apply x1 x3 p j
  · funext j
    rw [val_main_v29_apply, r_apply]
    rfl

/-- The candidate's pre-activation. -/
theorem linH_apply (p : Fin 4096) (q : Fin 64) :
    val_main_v34 (F := Ideal) x0 x1 x2 x3 x4 x5 x8 x9 (ix2 p q)
      = Spec.lin x8 x9 (Spec.catRow (rowU x0 x3 p) (rowV x1 x3 p)
          (fun j => Ideal.logistic (Spec.lin x4 x5 (Spec.catRow (rowU x0 x3 p) (rowV x1 x3 p) (rowX x2 p)) j) * rowX x2 p j)) q := by
  rw [val_main_v34_apply, val_main_v31_apply, val_main_v33_apply, val_main_v32_apply]
  show (∑ k : Fin 192, _) + _ = _
  unfold Spec.lin
  congr 1
  · refine Finset.sum_congr rfl fun k _ => ?_
    rw [show lidx_main_v31 (ix2 p q) k = ix2 p k from lidx_eq p q k, show ridx_main_v31 (ix2 p q) k = ix2 k q from ridx_eq p q k, cat2_apply]
    rfl
  · exact congrArg x9 (bias_idx p q)

/-- THE REFERENCE'S RESULT is the specification's array. -/
theorem result_eq : val_main_v40 (F := Ideal) x0 x1 x2 x3 x4 x5 x6 x7 x8 x9 = Spec.G x0 x1 x2 x3 x4 x5 x6 x7 x8 x9 := by
  funext i
  obtain ⟨p, q, rfl⟩ : ∃ (p : Fin 4096) (q : Fin 64), i = ix2 p q := ⟨i 0, i 1, eq_ix2 i⟩
  rw [Spec.G_ix2, val_main_v40_apply, val_main_v38_apply, val_main_v37_apply, val_main_v36_apply, val_main_cst_3_apply,
    val_main_v39_apply, val_main_v35_apply, z_apply, linH_apply]
  rfl

end

end Cert.ReferenceIdeal.RefValue

end
-- ==== Proof.lean ====
/-
  The certificate: a fused graph-propagator step (two aggregations over a dense adjacency array, then GRU-style
  gating) computed by one pipelined kernel region against its plain array reference.

  The frames.  The word-level kernel program and its idealization are the same text at two float instances: six
  reshapes, then one region on a grid of 16 points whose two adjacency windows read ONE array, each at half of its
  full share; the region's run is the shared-array frame run over the body's triple, and the argument arrays are
  never written.  The reference is host operations only, and its frame is its run with the result dropped.

  The idealization rewrote nothing, so it preserves the kernel trivially.

  The value.  At the ideal instance the kernel's result array is the specification's function of the arguments
  (block `t` of the grid writes rows `256·t … 256·t + 255` of it, each entry the specification's cell of the
  node's two aggregates and state), and the reference's composed term is the same function: its matrix products
  are the same sums, its joined rows the same rows, and its written-out sigmoid is the logistic function.  No
  finiteness of the inputs is used.
-/
import proofs.«124932_g33844342292619_cont_8to1_b_602_5_alg».proof.Defs
import proofs.«124932_g33844342292619_cont_8to1_b_602_5_alg».proof.Proof.Gen.Kernel
import proofs.«124932_g33844342292619_cont_8to1_b_602_5_alg».proof.Proof.Gen.KernelIdeal
import proofs.«124932_g33844342292619_cont_8to1_b_602_5_alg».proof.Proof.Gen.ReferenceIdeal
import proofs.«124932_g33844342292619_cont_8to1_b_602_5_alg».proof.Proof.Gen.Pre_finite_inputs
import proofs.«124932_g33844342292619_cont_8to1_b_602_5_alg».proof.Proof.KernelFrame
import proofs.«124932_g33844342292619_cont_8to1_b_602_5_alg».proof.Proof.KernelIdealFrame
import proofs.«124932_g33844342292619_cont_8to1_b_602_5_alg».proof.Proof.KernelValue
import proofs.«124932_g33844342292619_cont_8to1_b_602_5_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance both programs end with the specification's array of their (agreeing) arguments. -/
theorem algebraic : Cert.algebraic_KernelIdeal_ReferenceIdeal := by
  intro m ρ m' ρ' _ hagree
  refine ⟨fun c => Cert.KernelIdeal.HandValue.Gm m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v40_eq, Cert.ReferenceIdeal.RefValue.result_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
